-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg10 : FVec F S256x128 .f32) (main_arg11 : FVec F S128 .f32) (main_arg12 : FVec F S128x2 .f32) (main_arg13 : FVec F S2 .f32) (main_v33 : IVec S_ 1) : IVec S_ 1 :=
  let main_v34 : FVec F S256x128 .f32 := Host.absf main_arg10
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x2 .f32 := Host.absf main_arg12
  let main_cst_16 : FVec F S_ .f32 := constant S_ .f32 0x7F800000#32
  let main_v45 : FVec F S128x2 .f32 := broadcastInDim S128x2 ![] bcast_S_S128x2 main_cst_16
  let main_v46 : IVec S128x2 1 := cmpf .olt main_v44 main_v45
  let main_c_17 : IVec S_ 1 := constantI S_ 1 1#1
  let main_v47 : IVec S_ 1 := (fun x v => Host.reduce IntOp.andi x v reducesTo_S128x2_S_d0_1 h_S_) main_v46 main_c_17
  let main_v48 : IVec S_ 1 := andi main_v43 main_v47
  let main_v49 : FVec F S2 .f32 := Host.absf main_arg13
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg7 : FVec F S128 .f32) (main_arg8 : FVec F S128x256 .f32) (main_arg9 : FVec F S256 .f32) (main_arg10 : FVec F S256x128 .f32) (main_arg11 : FVec F S128 .f32) (main_arg12 : FVec F S128x2 .f32) (main_arg13 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg8
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg9
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg10 main_arg11 main_arg12 main_arg13 main_v33

def fn {F : FTy → Type} [FloatOps F] (main_arg0 : FVec F S100000x128 .f32) (main_arg1 : IVec S1600000 32) (main_arg2 : IVec S1600000 32) (main_arg3 : IVec S100000 32) (main_arg4 : FVec F S128x128 .f32) (main_arg5 : FVec F S128 .f32) (main_arg6 : FVec F S128x128 .f32) (main_arg7 : FVec F S128 .f32) (main_arg8 : FVec F S128x256 .f32) (main_arg9 : FVec F S256 .f32) (main_arg10 : FVec F S256x128 .f32) (main_arg11 : FVec F S128 .f32) (main_arg12 : FVec F S128x2 .f32) (main_arg13 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_arg13 main_v13 main_v16
-- ==== Kernel.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x2 : Shape := ⟨2, ![128, 2]⟩
abbrev S2 : Shape := ⟨1, ![2]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S1x256 : Shape := ⟨2, ![1, 256]⟩
abbrev S1x2 : Shape := ⟨2, ![1, 2]⟩
abbrev S512x2 : Shape := ⟨2, ![512, 2]⟩
abbrev S512x256 : Shape := ⟨2, ![512, 256]⟩

abbrev nBuf : Space → Nat
  | .hbm => 93
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S128x2, .f32⟩
  | .hbm, ⟨13, _⟩ => ⟨S2, .f32⟩
  | .hbm, ⟨14, _⟩ => ⟨S100000, .i32⟩
  | .hbm, ⟨15, _⟩ => ⟨S1700000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S1700000x1, .i32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x128, .f32⟩
  | .hbm, ⟨76, _⟩ => ⟨S1700000x1, .f32⟩
  | .hbm, ⟨77, _⟩ => ⟨S1700000x128, .f32⟩
  | .hbm, ⟨78, _⟩ => ⟨S1700000x128, .f32⟩
  | .hbm, ⟨79, _⟩ => ⟨S_, .f32⟩
  | .hbm, ⟨80, _⟩ => ⟨S100000x128, .f32⟩
  | .hbm, ⟨81, _⟩ => ⟨S1700000x1, .i32⟩
  | .hbm, ⟨82, _⟩ => ⟨S100000x128, .f32⟩
  | .hbm, ⟨83, _⟩ => ⟨S1x128, .f32⟩
  | .hbm, ⟨84, _⟩ => ⟨S100000x128, .f32⟩
  | .hbm, ⟨85, _⟩ => ⟨S_, .f32⟩
  | .hbm, ⟨86, _⟩ => ⟨S512x128, .f32⟩
  | .hbm, ⟨87, _⟩ => ⟨S100000x1, .i32⟩
  | .hbm, ⟨88, _⟩ => ⟨S512x128, .f32⟩
  | .hbm, ⟨89, _⟩ => ⟨S1x256, .f32⟩
  | .hbm, ⟨90, _⟩ => ⟨S1x128, .f32⟩
  | .hbm, ⟨91, _⟩ => ⟨S1x2, .f32⟩
  | .hbm, ⟨92, _⟩ => ⟨S512x2, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S128x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S10000x128, .f32⟩
  | .local _ .vmem, ⟨15, _⟩ => ⟨S10000x128, .f32⟩
  | .local _ .vmem, ⟨16, _⟩ => ⟨S512x128, .f32⟩
  | .local _ .vmem, ⟨17, _⟩ => ⟨S128x256, .f32⟩
  | .local _ .vmem, ⟨18, _⟩ => ⟨S1x256, .f32⟩
  | .local _ .vmem, ⟨19, _⟩ => ⟨S256x128, .f32⟩
  | .local _ .vmem, ⟨20, _⟩ => ⟨S1x128, .f32⟩
  | .local _ .vmem, ⟨21, _⟩ => ⟨S128x2, .f32⟩
  | .local _ .vmem, ⟨22, _⟩ => ⟨S1x2, .f32⟩
  | .local _ .vmem, ⟨23, _⟩ => ⟨S512x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c : Ref sig .tc := ⟨.hbm, 27, rfl⟩
abbrev main_v10 : Ref sig .tc := ⟨.hbm, 28, rfl⟩
abbrev main_v11 : Ref sig .tc := ⟨.hbm, 29, rfl⟩
abbrev main_c_2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_8 : Ref sig .tc := ⟨.hbm, 67, rfl⟩
abbrev main_v43 : Ref sig .tc := ⟨.hbm, 68, rfl⟩
abbrev main_v44 : Ref sig .tc := ⟨.hbm, 69, rfl⟩
abbrev main_c_9 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_11 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg4_0 : Ref sig .tc := ⟨.vmem, 20, rfl⟩
abbrev cc3_stg5_0 : Ref sig .tc := ⟨.vmem, 21, rfl⟩
abbrev cc3_stg6_0 : Ref sig .tc := ⟨.vmem, 22, rfl⟩
abbrev cc3_stg7_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem1_0 : DmaSem sig := 17
abbrev cc3_sem2_0 : DmaSem sig := 18
abbrev cc3_sem3_0 : DmaSem sig := 19
abbrev cc3_sem4_0 : DmaSem sig := 20
abbrev cc3_sem5_0 : DmaSem sig := 21
abbrev cc3_sem6_0 : DmaSem sig := 22
abbrev cc3_sem7_0 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x2 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x2 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S512x2 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S_S512x128 : S_.BroadcastsInDim S512x128 (![] : Fin 0 → Fin S512x128.rank)
  bcast_S100000_S100000x1_0 : S100000.BroadcastsInDim S100000x1 (![0] : Fin 1 → Fin S100000x1.rank)
  shapeCasts_S256_S1x256 : S256.ShapeCasts S1x256
  shapeCasts_S2_S1x2 : S2.ShapeCasts S1x2
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x128_S256x128_0_0 : ∀ a, (![0, 0] : Fin 2 → Nat) a + S256x128.size a ≤ S256x128.size a
  h_S256x128 : 0 < S256x128.numel
  broadcasts_S1x128_S512x128 : S1x128.Broadcasts S512x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  dot_S512x128_S128x256_S512x256_1_0_0_1_n_n_wf : DotDims.WF S512x128 S128x256 S512x256 [1] [0] [0] [1] [] []
  dot_S512x256_S256x128_S512x128_1_0_0_1_n_n_wf : DotDims.WF S512x256 S256x128 S512x128 [1] [0] [0] [1] [] []
  dot_S512x128_S128x2_S512x2_1_0_0_1_n_n_wf : DotDims.WF S512x128 S128x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S512x128.size a
  hwx3_0 : ∀ i : grid3.Coords, EltTy.bits .f32 = 32 ∨ (Rect.block (s := S512x128) S512x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x256.size a ≤ S128x256.size a
  hwx3_1 : ∀ i : grid3.Coords, EltTy.bits .f32 = 32 ∨ (Rect.block (s := S128x256) S128x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x128.size a ≤ S256x128.size a
  hwx3_3 : ∀ i : grid3.Coords, EltTy.bits .f32 = 32 ∨ (Rect.block (s := S256x128) S256x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x2.size a ≤ S128x2.size a
  hwx3_5 : ∀ i : grid3.Coords, EltTy.bits .f32 = 32 ∨ (Rect.block (s := S128x2) S128x2.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x2.size a ≤ S1x2.size a
  hwx3_6 : ∀ i : grid3.Coords, EltTy.bits .f32 = 32 ∨ (Rect.block (s := S1x2) S1x2.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S512x2.size a ≤ S512x2.size a
  hwx3_7 : ∀ i : grid3.Coords, EltTy.bits .f32 = 32 ∨ (Rect.block (s := S512x2) S512x2.size (cc3_transform_7 i) (hinb3_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v55) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S512x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S256x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg12) S128x2.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v63) S1x2.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v64) S512x2.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x2 : Shape := ⟨2, ![128, 2]⟩
abbrev S2 : Shape := ⟨1, ![2]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512x256 : Shape := ⟨2, ![512, 256]⟩
abbrev S1x256 : Shape := ⟨2, ![1, 256]⟩
abbrev S512x2 : Shape := ⟨2, ![512, 2]⟩
abbrev S1x2 : Shape := ⟨2, ![1, 2]⟩

abbrev nBuf : Space → Nat
  | .hbm => 116
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S128x2, .f32⟩
  | .hbm, ⟨13, _⟩ => ⟨S2, .f32⟩
  | .hbm, ⟨14, _⟩ => ⟨S100000, .i32⟩
  | .hbm, ⟨15, _⟩ => ⟨S1700000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S1700000x1, .i32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x128, .f32⟩
  | .hbm, ⟨81, _⟩ => ⟨S1700000x1, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S_, .f32⟩
  | .hbm, ⟨92, _⟩ => ⟨S100000x128, .f32⟩
  | .hbm, ⟨93, _⟩ => ⟨S100000x128, .f32⟩
  | .hbm, ⟨94, _⟩ => ⟨S_, .f32⟩
  | .hbm, ⟨95, _⟩ => ⟨S512x128, .f32⟩
  | .hbm, ⟨96, _⟩ => ⟨S100000x1, .i32⟩
  | .hbm, ⟨97, _⟩ => ⟨S512x128, .f32⟩
  | .hbm, ⟨98, _⟩ => ⟨S512x256, .f32⟩
  | .hbm, ⟨99, _⟩ => ⟨S1x256, .f32⟩
  | .hbm, ⟨100, _⟩ => ⟨S512x256, .f32⟩
  | .hbm, ⟨101, _⟩ => ⟨S512x256, .f32⟩
  | .hbm, ⟨102, _⟩ => ⟨S_, .f32⟩
  | .hbm, ⟨103, _⟩ => ⟨S512x256, .f32⟩
  | .hbm, ⟨104, _⟩ => ⟨S512x256, .f32⟩
  | .hbm, ⟨105, _⟩ => ⟨S512x128, .f32⟩
  | .hbm, ⟨106, _⟩ => ⟨S1x128, .f32⟩
  | .hbm, ⟨107, _⟩ => ⟨S512x128, .f32⟩
  | .hbm, ⟨108, _⟩ => ⟨S512x128, .f32⟩
  | .hbm, ⟨109, _⟩ => ⟨S_, .f32⟩
  | .hbm, ⟨110, _⟩ => ⟨S512x128, .f32⟩
  | .hbm, ⟨111, _⟩ => ⟨S512x128, .f32⟩
  | .hbm, ⟨112, _⟩ => ⟨S512x2, .f32⟩
  | .hbm, ⟨113, _⟩ => ⟨S1x2, .f32⟩
  | .hbm, ⟨114, _⟩ => ⟨S512x2, .f32⟩
  | .hbm, ⟨115, _⟩ => ⟨S512x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c : Ref sig .tc := ⟨.hbm, 27, rfl⟩
abbrev main_v10 : Ref sig .tc := ⟨.hbm, 28, rfl⟩
abbrev main_v11 : Ref sig .tc := ⟨.hbm, 29, rfl⟩
abbrev main_c_2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_call0_cst : Ref sig .tc := ⟨.hbm, 68, rfl⟩
abbrev main_call0_v0 : Ref sig .tc := ⟨.hbm, 69, rfl⟩
abbrev main_v44 : Ref sig .tc := ⟨.hbm, 70, rfl⟩
abbrev main_v45 : Ref sig .tc := ⟨.hbm, 71, rfl⟩
abbrev main_c_8 : Ref sig .tc := ⟨.hbm, 72, rfl⟩
abbrev main_v46 : Ref sig .tc := ⟨.hbm, 73, rfl⟩
abbrev main_v47 : Ref sig .tc := ⟨.hbm, 74, rfl⟩
abbrev main_c_9 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_10 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_call1_cst : Ref sig .tc := ⟨.hbm, 91, rfl⟩
abbrev main_call1_v0 : Ref sig .tc := ⟨.hbm, 92, rfl⟩
abbrev main_v62 : Ref sig .tc := ⟨.hbm, 93, rfl⟩
abbrev main_cst_11 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_call2_cst : Ref sig .tc := ⟨.hbm, 102, rfl⟩
abbrev main_call2_v0 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_call3_cst : Ref sig .tc := ⟨.hbm, 109, rfl⟩
abbrev main_call3_v0 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩

abbrev nD : Nat := 1
abbrev τ : Topo := Topo.v7x

variable {F : FTy → Type} [FloatOps F]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  bcast_S_S512x256 : S_.BroadcastsInDim S512x256 (![] : Fin 0 → Fin S512x256.rank)
  bcast_S1x128_S512x128_0_1 : S1x128.BroadcastsInDim S512x128 (![0, 1] : Fin 2 → Fin S512x128.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  dot_S512x128_S128x256_S512x256_1_0_0_1_n_n_wf : DotDims.WF S512x128 S128x256 S512x256 [1] [0] [0] [1] [] []
  dot_S512x256_S256x128_S512x128_1_0_0_1_n_n_wf : DotDims.WF S512x256 S256x128 S512x128 [1] [0] [0] [1] [] []
  dot_S512x128_S128x2_S512x2_1_0_0_1_n_n_wf : DotDims.WF S512x128 S128x2 S512x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

class Facts : Prop extends Facts₀ where

variable [Facts]
-- ==== Proof.SpecOps.lean ====
/-
  The three dense stages every layer of the network is made of, as functions on matrices over the extended reals:
  the matrix product, "add a bias row, then clamp below at zero", and "add a bias row". A matrix is a function of a
  two-coordinate index; a bias row is a matrix of one row.
-/
import Idealize.ShloMosaic.PureOps.Ideal
import Idealize.ShloMosaic.Lib.ValueIdx

noncomputable section

open scoped BigOperators

namespace Cert.SpecOps

open Idealize.ShloMosaic Idealize.ShloMosaic.ValueIdx

/-- An `r × c` matrix of extended reals. -/
abbrev Mat (r c : ℕ) : Type := FVec Ideal ⟨2, ![r, c]⟩ .f32

/-- The matrix product: entry (p, q) is the sum over j of x(p, j) · w(j, q). -/
def mm {r k c : ℕ} (x : Mat r k) (w : Mat k c) : Mat r c :=
  fun i => ∑ j : Fin k, x (ix2 (i 0) j) * w (ix2 j (i 1))

/-- Add the bias row to every row, then take the maximum with zero. -/
def biasRelu {r c : ℕ} (a : Mat r c) (b : Mat 1 c) : Mat r c :=
  fun i => max (a i + b (ix2 (0 : Fin 1) (i 1))) 0

/-- Add the bias row to every row. -/
def addRow {r c : ℕ} (a : Mat r c) (b : Mat 1 c) : Mat r c :=
  fun i => a i + b (ix2 (0 : Fin 1) (i 1))

theorem mm_apply {r k c : ℕ} (x : Mat r k) (w : Mat k c) (p : Fin r) (q : Fin c) :
    mm x w (ix2 p q) = ∑ j : Fin k, x (ix2 p j) * w (ix2 j q) := rfl

theorem biasRelu_apply {r c : ℕ} (a : Mat r c) (b : Mat 1 c) (p : Fin r) (q : Fin c) :
    biasRelu a b (ix2 p q) = max (a (ix2 p q) + b (ix2 (0 : Fin 1) q)) 0 := rfl

theorem addRow_apply {r c : ℕ} (a : Mat r c) (b : Mat 1 c) (p : Fin r) (q : Fin c) :
    addRow a b (ix2 p q) = a (ix2 p q) + b (ix2 (0 : Fin 1) q) := rfl

end Cert.SpecOps

end
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.Region0.lean ====
/-
  What the first pallas_call (a row-blocked matrix product) leaves in its output array, as one function of the arrays it reads.
-/
import proofs.«165648_j7834020348011_1_alg».proof.Proof.Gen.KernelIdeal.Frame
import proofs.«165648_j7834020348011_1_alg».proof.Proof.SpecOps
import proofs.«165648_j7834020348011_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.SpecOps

variable (V : (c : Dev nD) → (b : Ref sig .tc) → Buf (Elt Ideal) ((c : Thread nD τ).loc b))

/-- The zero offset of a whole-buffer access. -/
theorem zero_offset : (![0, 0] : Fin 2 → Nat) = fun _ => 0 := funext fun a => by fin_cases a <;> rfl

/-- The body's stored value at entry (p, q): with the format changes the identity and the accumulator zero, the
    sum over k of x(p, k) · w(k, q). -/
theorem product_entry (x0 : Vec Ideal S10000x128 .f32) (x1 : Vec Ideal S128x128 .f32) (p : Fin 10000) (q : Fin 128) :
    k0_pay1 (F := Ideal) x0 x1 (ix2 p q) = ∑ k : Fin 128, x0 (ix2 p k) * x1 (ix2 k q) := by
  unfold k0_pay1
  exact Cert.LibDot.matmul_zero_at dot_S10000x128_S128x128_S10000x128_1_0_0_1_n_n rfl rfl rfl rfl rfl rfl none x0 x1 p q

/-- The printed index maps over the ten grid points: the row-blocked windows sit at block row t, column block 0;
    the weight window at block (0, 0) at every point. -/
theorem block_positions : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row-blocked operand's block at point t is rows 10000·t … 10000·t + 9999 of its array. -/
theorem row_block_read (c : Dev nD) (t : Fin cfg0.N) (x : S10000x128.Idx) (i : S100000x128.Idx)
    (h0 : (i 0).val = t.val * 10000 + (x 0).val) (h1 : (i 1).val = (x 1).val) :
    (iblk0 V c 0 t : Vec Ideal S10000x128 .f32) x = (V c main_arg0 : S100000x128.Idx → EReal) i := by
  obtain ⟨e0, e1, -, -, -, -⟩ := block_positions t
  unfold iblk0
  rw [View.read_apply]
  show V c main_arg0 _ = V c main_arg0 _
  congr 1
  funext a
  apply Fin.ext
  match a with
  | ⟨0, _⟩ => show win0_0.index t (0 : Fin 2) * 10000 + 1 * (x 0).val = (i 0).val; rw [e0, h0]; omega
  | ⟨1, _⟩ => show win0_0.index t (1 : Fin 2) * 128 + 1 * (x 1).val = (i 1).val; rw [e1, h1]; omega

/-- The weight operand's block at every point is its whole array. -/
theorem weight_block_read (c : Dev nD) (t : Fin cfg0.N) (x : S128x128.Idx) :
    (iblk0 V c 1 t : Vec Ideal S128x128 .f32) x = (V c main_arg4 : S128x128.Idx → EReal) x := by
  obtain ⟨-, -, e2, e3, -, -⟩ := block_positions t
  unfold iblk0
  rw [View.read_apply]
  show V c main_arg4 _ = V c main_arg4 _
  congr 1
  funext a
  apply Fin.ext
  match a with
  | ⟨0, _⟩ => show win0_1.index t (0 : Fin 2) * 128 + 1 * (x 0).val = (x 0).val; rw [e2]; omega
  | ⟨1, _⟩ => show win0_1.index t (1 : Fin 2) * 128 + 1 * (x 1).val = (x 1).val; rw [e3]; omega

/-- What grid point t writes back is block t of the matrix product of the two operand arrays. -/
theorem point_writes_product_block (c : Dev nD) (t : Fin cfg0.N) :
    (dat0 (F := Ideal) V c).flushed 2 t
      = ((cfg0.win 2).blk t).view.read (Elt Ideal) (mm (r := 100000) (k := 128) (c := 128) (V c main_arg0) (V c main_arg4)) := by
  show (cfg0.win 2).cut (grid0.coords t) ((dat0 (F := Ideal) V c).after 2 t) = _
  rw [after0_2]
  unfold out0_2
  rw [View.canon_unit_zero zero_offset]
  simp only [View.ld_unit_zero (S := S10000x128) zero_offset, View.ld_unit_zero (S := S128x128) zero_offset]
  obtain ⟨e0, e1, e2, e3, e4, e5⟩ := block_positions t
  funext j
  show k0_pay1 (F := Ideal) (iblk0 V c 0 t) (iblk0 V c 1 t) j
      = mm (r := 100000) (k := 128) (c := 128) (V c main_arg0) (V c main_arg4) (((cfg0.win 2).blk t).view.emb j)
  obtain ⟨p, q, rfl⟩ : ∃ (p : Fin 10000) (q : Fin 128), j = ix2 p q := ⟨j 0, j 1, eq_ix2 j⟩
  rw [product_entry (iblk0 V c 0 t) (iblk0 V c 1 t) p q]
  obtain ⟨r, s, hE⟩ : ∃ (r : Fin 100000) (s : Fin 128), ((cfg0.win 2).blk t).view.emb (ix2 p q) = ix2 r s :=
    ⟨_, _, eq_ix2 (n0 := 100000) (n1 := 128) (((cfg0.win 2).blk t).view.emb (ix2 p q))⟩
  have hr : r.val = t.val * 10000 + p.val := by
    have h := congrArg (fun i : S100000x128.Idx => (i 0).val) hE
    have h' : win0_2.index t (0 : Fin 2) * 10000 + 1 * p.val = r.val := h
    rw [e4] at h'; omega
  have hs : s.val = q.val := by
    have h := congrArg (fun i : S100000x128.Idx => (i 1).val) hE
    have h' : win0_2.index t (1 : Fin 2) * 128 + 1 * q.val = s.val := h
    rw [e5] at h'; omega
  rw [hE, mm_apply]
  refine Finset.sum_congr rfl fun k _ => ?_
  rw [row_block_read V c t (ix2 p k) (ix2 r k) hr rfl, weight_block_read V c t (ix2 k q)]
  have hsq : s = q := Fin.ext hs
  rw [hsq]

/-- An index of the output array is in point t's block iff each coordinate is in the block's range on its axis. -/
theorem mem_block_iff (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v27).slice (win0_2.rect t)).set ↔ _
  rw [View.set_slice_whole, Rect.mem_set_unit]
  exact Iff.rfl

/-- Every index of the output array is in some point's block: row r is in the block of point r / 10000. -/
theorem blocks_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 10 := N_0
  obtain ⟨t, ht⟩ : ∃ t : Fin cfg0.N, t.val = (i 0).val / 10000 :=
    ⟨⟨(i 0).val / 10000, by show (i 0).val / 10000 < grid0.N; rw [hN]; omega⟩, rfl⟩
  obtain ⟨-, -, -, -, e4, e5⟩ := block_positions t
  refine ⟨t, flush0_2 t, ?_⟩
  rw [mem_block_iff]
  intro a
  match a with
  | ⟨0, _⟩ =>
    show win0_2.index t (0 : Fin 2) * 10000 ≤ (i 0).val ∧ (i 0).val < win0_2.index t (0 : Fin 2) * 10000 + 10000
    rw [e4, ht]; omega
  | ⟨1, _⟩ =>
    show win0_2.index t (1 : Fin 2) * 128 ≤ (i 1).val ∧ (i 1).val < win0_2.index t (1 : Fin 2) * 128 + 128
    rw [e5]; omega

/-- The first pallas_call leaves in its output array the matrix product of its two operand arrays. -/
theorem value (c : Dev nD) :
    (dat0 (F := Ideal) V c).arrAt 2 cfg0.N = mm (r := 100000) (k := 128) (c := 128) (V c main_arg0) (V c main_arg4) := by
  exact (dat0 (F := Ideal) V c).arrAt_eq_of_cover 2 (mm (r := 100000) (k := 128) (c := 128) (V c main_arg0) (V c main_arg4))
    (fun t _ => point_writes_product_block V c t) blocks_cover

end Cert.KernelIdeal.Region0

end
-- ==== Proof.Region1.lean ====
/-
  What the second pallas_call (bias, clamp at zero, matrix product, blocked by rows) leaves in its output array, as one function of the arrays it reads.
-/
import proofs.«165648_j7834020348011_1_alg».proof.Proof.Gen.KernelIdeal.Frame
import proofs.«165648_j7834020348011_1_alg».proof.Proof.SpecOps
import proofs.«165648_j7834020348011_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.SpecOps

theorem zero_offsets : (![0, 0] : Fin 2 → Nat) = fun _ => 0 := funext fun a => by fin_cases a <;> rfl

/-- The body's result at entry (p, q) of its block: the sum over k of max(x(p, k) + b(0, k), 0) · w(k, q). -/
theorem pay_at (x0 : Vec Ideal S10000x128 .f32) (x1 : Vec Ideal S1x128 .f32) (x2 : Vec Ideal S128x128 .f32)
    (p : Fin 10000) (q : Fin 128) :
    k1_pay1 (F := Ideal) x0 x1 x2 (ix2 p q)
      = ∑ k : Fin 128, max (x0 (ix2 p k) + x1 (ix2 (0 : Fin 1) k)) 0 * x2 (ix2 k q) := by
  unfold k1_pay1
  simp only [shapeCast_self]
  refine (Cert.LibDot.matmul_zero_at dot_S10000x128_S128x128_S10000x128_1_0_0_1_n_n rfl rfl rfl rfl rfl rfl none _ _ p q).trans ?_
  refine Finset.sum_congr rfl fun k _ => ?_
  rw [truncf_apply, truncf_apply, maximumf_apply, addf_apply, broadcast_apply]
  have hb : broadcastTo S10000x128 x1 broadcasts_S1x128_S10000x128 (ix2 p k) = x1 (ix2 (0 : Fin 1) k) :=
    broadcastTo_apply x1 broadcasts_S1x128_S10000x128 (ix2 p k) (ix2 (0 : Fin 1) k) (fun a => by
      match a with
      | ⟨0, _⟩ => rfl
      | ⟨1, _⟩ => rfl)
  rw [hb, Ideal.ofBits_def, Ideal.ofBits_zero_f32]

variable (V : (c : Dev nD) → (b : Ref sig .tc) → Buf (Elt Ideal) ((c : Thread nD τ).loc b))

/-- The windows' block-index maps over the grid: the row-blocked windows sit at block row t, column block 0; the whole windows at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The first operand's block at grid point t is rows 10000·t … 10000·t + 9999 of its array. -/
theorem blk0_apply (c : Dev nD) (t : Fin cfg1.N) (x : S10000x128.Idx) (i : S100000x128.Idx)
    (h0 : (i 0).val = t.val * 10000 + (x 0).val) (h1 : (i 1).val = (x 1).val) :
    (iblk1 (F := Ideal) V c 0 t : Vec Ideal S10000x128 .f32) x = (V c main_v40 : S100000x128.Idx → Elt Ideal .f32) i := by
  obtain ⟨e0, e1, -, -, -, -, -, -⟩ := idx_facts t
  unfold iblk1
  rw [View.read_apply]
  show V c main_v40 _ = V c main_v40 _
  congr 1
  funext a
  apply Fin.ext
  match a with
  | ⟨0, _⟩ => show win1_0.index t (0 : Fin 2) * 10000 + 1 * (x 0).val = (i 0).val; omega
  | ⟨1, _⟩ => show win1_0.index t (1 : Fin 2) * 128 + 1 * (x 1).val = (i 1).val; omega

/-- The bias row's block at every grid point is the whole row. -/
theorem blk1_apply (c : Dev nD) (t : Fin cfg1.N) (x : S1x128.Idx) :
    (iblk1 (F := Ideal) V c 1 t : Vec Ideal S1x128 .f32) x = (V c main_v41 : S1x128.Idx → Elt Ideal .f32) x := by
  obtain ⟨-, -, e0, e1, -, -, -, -⟩ := idx_facts t
  unfold iblk1
  rw [View.read_apply]
  show V c main_v41 _ = V c main_v41 _
  congr 1
  funext a
  apply Fin.ext
  match a with
  | ⟨0, _⟩ => show win1_1.index t (0 : Fin 2) * 1 + 1 * (x 0).val = (x 0).val; omega
  | ⟨1, _⟩ => show win1_1.index t (1 : Fin 2) * 128 + 1 * (x 1).val = (x 1).val; omega

/-- The weight matrix's block at every grid point is the whole matrix. -/
theorem blk2_apply (c : Dev nD) (t : Fin cfg1.N) (x : S128x128.Idx) :
    (iblk1 (F := Ideal) V c 2 t : Vec Ideal S128x128 .f32) x = (V c main_arg6 : S128x128.Idx → Elt Ideal .f32) x := by
  obtain ⟨-, -, -, -, e0, e1, -, -⟩ := idx_facts t
  unfold iblk1
  rw [View.read_apply]
  show V c main_arg6 _ = V c main_arg6 _
  congr 1
  funext a
  apply Fin.ext
  match a with
  | ⟨0, _⟩ => show win1_2.index t (0 : Fin 2) * 128 + 1 * (x 0).val = (x 0).val; omega
  | ⟨1, _⟩ => show win1_2.index t (1 : Fin 2) * 128 + 1 * (x 1).val = (x 1).val; omega

/-- What the grid point t writes back is block t of the product. -/
theorem flushed_eq (c : Dev nD) (t : Fin cfg1.N) :
    (dat1 (F := Ideal) V c).flushed 3 t = ((cfg1.win 3).blk t).view.read (Elt Ideal)
      (mm (r := 100000) (k := 128) (c := 128) (biasRelu (r := 100000) (c := 128) (V c main_v40) (V c main_v41)) (V c main_arg6)) := by
  show (cfg1.win 3).cut (grid1.coords t) ((dat1 V c).after 3 t) = _
  rw [after1_3]
  unfold out1_3
  rw [View.canon_unit_zero zero_offsets]
  simp only [View.ld_unit_zero (S := S10000x128) zero_offsets, View.ld_unit_zero (S := S1x128) zero_offsets,
    View.ld_unit_zero (S := S128x128) zero_offsets]
  funext j
  obtain ⟨p, q, rfl⟩ : ∃ (p : Fin 10000) (q : Fin 128), j = ix2 p q := ⟨j 0, j 1, eq_ix2 j⟩
  obtain ⟨-, -, -, -, -, -, e0, e1⟩ := idx_facts t
  have hN : cfg1.N = 10 := N_1
  have ht : t.val < cfg1.N := t.isLt
  have hr : t.val * 10000 + p.val < 100000 := by have hp := p.isLt; omega
  have hemb : (((cfg1.win 3).blk t).view.emb (ix2 p q) : S100000x128.Idx)
      = ix2 (⟨t.val * 10000 + p.val, hr⟩ : Fin 100000) q := by
    funext a
    apply Fin.ext
    match a with
    | ⟨0, _⟩ => show win1_3.index t (0 : Fin 2) * 10000 + 1 * p.val = t.val * 10000 + p.val; omega
    | ⟨1, _⟩ => show win1_3.index t (1 : Fin 2) * 128 + 1 * q.val = q.val; omega
  show k1_pay1 (iblk1 V c 0 t) (iblk1 V c 1 t) (iblk1 V c 2 t) (ix2 p q)
    = mm (r := 100000) (k := 128) (c := 128) (biasRelu (r := 100000) (c := 128) (V c main_v40) (V c main_v41)) (V c main_arg6)
        (((cfg1.win 3).blk t).view.emb (ix2 p q))
  refine ((pay_at (iblk1 V c 0 t) (iblk1 V c 1 t) (iblk1 V c 2 t) p q).trans ?_).trans
    (congrArg (mm (r := 100000) (k := 128) (c := 128) (biasRelu (r := 100000) (c := 128) (V c main_v40) (V c main_v41)) (V c main_arg6)) hemb).symm
  rw [mm_apply]
  refine Finset.sum_congr rfl fun k _ => ?_
  rw [biasRelu_apply, blk0_apply V c t (ix2 p k) (ix2 (⟨t.val * 10000 + p.val, hr⟩ : Fin 100000) k) rfl rfl,
    blk1_apply V c t (ix2 (0 : Fin 1) k), blk2_apply V c t (ix2 k q)]

/-- An index of the output array is in grid point t's block iff each coordinate is in the block's range on its axis. -/
theorem mem_blk (t : Fin cfg1.N) (i : S100000x128.Idx) :
    i ∈ ((cfg1.win 3).blk t).view.set ↔ ∀ a : Fin 2, win1_3.index t a * S10000x128.size a ≤ (i a).val
      ∧ (i a).val < win1_3.index t a * S10000x128.size a + S10000x128.size a := by
  show i ∈ ((View.whole main_v42).slice (win1_3.rect t)).set ↔ _
  rw [View.set_slice_whole, Rect.mem_set_unit]
  exact Iff.rfl

/-- Every index of the output array is in some grid point's block: row r is in the block of grid point r / 10000. -/
theorem cover (i : S100000x128.Idx) :
    ∃ t : Fin cfg1.N, (cfg1.win 3).flush t = true ∧ i ∈ ((cfg1.win 3).blk t).view.set := by
  have hN : cfg1.N = 10 := N_1
  have hi0 : (i 0).val < 100000 := (i 0).isLt
  have hi1 : (i 1).val < 128 := (i 1).isLt
  obtain ⟨t, ht⟩ : ∃ t : Fin cfg1.N, t.val = (i 0).val / 10000 := ⟨⟨(i 0).val / 10000, by omega⟩, rfl⟩
  obtain ⟨-, -, -, -, -, -, e0, e1⟩ := idx_facts t
  refine ⟨t, flush1_3 t, ?_⟩
  rw [mem_blk]
  intro a
  match a with
  | ⟨0, _⟩ =>
    show win1_3.index t (0 : Fin 2) * 10000 ≤ (i 0).val ∧ (i 0).val < win1_3.index t (0 : Fin 2) * 10000 + 10000
    omega
  | ⟨1, _⟩ =>
    show win1_3.index t (1 : Fin 2) * 128 ≤ (i 1).val ∧ (i 1).val < win1_3.index t (1 : Fin 2) * 128 + 128
    omega

/-- The second pallas_call leaves in its output array: add the bias row to its first operand, clamp at zero, multiply by the weight matrix. -/
theorem value (c : Dev nD) :
    (dat1 (F := Ideal) V c).arrAt 3 cfg1.N
      = mm (r := 100000) (k := 128) (c := 128) (biasRelu (r := 100000) (c := 128) (V c main_v40) (V c main_v41)) (V c main_arg6) := by
  exact (dat1 (F := Ideal) V c).arrAt_eq_of_cover 3 _ (fun t _ => flushed_eq V c t) cover

end Cert.KernelIdeal.Region1

end
-- ==== Proof.Region2.lean ====
/-
  What the third pallas_call (bias, clamp at zero, blocked by rows) leaves in its output array, as one function of the arrays it reads.
-/
import proofs.«165648_j7834020348011_1_alg».proof.Proof.Gen.KernelIdeal.Frame
import proofs.«165648_j7834020348011_1_alg».proof.Proof.SpecOps
import proofs.«165648_j7834020348011_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.SpecOps

/-- The offset of an access that starts at the origin of a two-axis buffer is the zero offset. -/
theorem origin_eq : (![0, 0] : Fin 2 → Nat) = fun _ => 0 := funext fun a => by fin_cases a <;> rfl

/-- The body's arithmetic at one entry of a block: the entry of the first operand's block plus the bias row's entry in
    the same column, clamped below at zero. -/
theorem pay_apply (x0 : Vec Ideal S10000x128 .f32) (x1 : Vec Ideal S1x128 .f32) (p : Fin 10000) (q : Fin 128) :
    k2_pay1 (F := Ideal) x0 x1 (ix2 p q) = max (x0 (ix2 p q) + x1 (ix2 (0 : Fin 1) q)) 0 := by
  unfold k2_pay1
  show max (shapeCast S10000x128 x0 _ (ix2 p q) + broadcastTo S10000x128 (shapeCast S1x128 x1 _) _ (ix2 p q))
      (Ideal.ofBits .f32 0x00000000#32) = _
  rw [shapeCast_self, shapeCast_self, Ideal.ofBits_zero_f32,
    broadcastTo_apply x1 _ (ix2 p q) (ix2 (0 : Fin 1) q) (fun a => by match a with | ⟨0, _⟩ => rfl | ⟨1, _⟩ => rfl)]

/-- The function of the theorem at an index, from the two operands read at indices that name the same row and column. -/
theorem point_eq (a : Mat 100000 128) (b : Mat 1 128) (i0 i2 : S100000x128.Idx) (i1 : S1x128.Idx)
    (h0 : i0 = i2) (h1 : i1 = ix2 (0 : Fin 1) (i2 1)) : max (a i0 + b i1) 0 = biasRelu a b i2 := by
  subst h0 h1; rfl

/-- The windows' block indices at every grid point: the two row-blocked windows sit at the block of rows whose number is
    the grid point, in the only block of columns; the bias row's window stays at its only block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What a grid point writes back is its block of rows of "first operand plus bias row, clamped at zero". -/
theorem flushed_eq (c : Dev nD) (t : Fin cfg2.N) :
    (dat2 (F := Ideal) V c).flushed 2 t
      = ((cfg2.win 2).blk t).view.read (Elt Ideal) (biasRelu (r := 100000) (c := 128) (V c main_v55) (V c main_v56)) := by
  show (cfg2.win 2).cut (grid2.coords t) ((dat2 (F := Ideal) V c).after 2 t) = _
  rw [after2_2]
  unfold out2_2
  rw [View.canon_unit_zero origin_eq]
  simp only [View.ld_unit_zero (S := S10000x128) origin_eq, View.ld_unit_zero (S := S1x128) origin_eq]
  obtain ⟨e0, e1, e2, e3, e4, e5⟩ := idx_facts t
  funext j
  obtain ⟨p, q, rfl⟩ : ∃ (p : Fin 10000) (q : Fin 128), j = ix2 p q := ⟨j 0, j 1, eq_ix2 (n0 := 10000) (n1 := 128) j⟩
  refine (pay_apply (iblk2 V c 0 t) (iblk2 V c 1 t) p q).trans ?_
  unfold iblk2
  have h0 : ((cfg2.win 0).blk t).view.emb (ix2 p q) = ((cfg2.win 2).blk t).view.emb (ix2 p q) := by
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 128 + 1 * q.val = win2_2.index t (1 : Fin 2) * 128 + 1 * q.val; omega
  have h1 : ((cfg2.win 1).blk t).view.emb (ix2 (0 : Fin 1) q)
      = ix2 (0 : Fin 1) ((((cfg2.win 2).blk t).view.emb (ix2 p q)) 1) := by
    funext a; apply Fin.ext
    match a with
    | ⟨0, _⟩ => show win2_1.index t (0 : Fin 2) * 1 + 1 * 0 = 0; omega
    | ⟨1, _⟩ => show win2_1.index t (1 : Fin 2) * 128 + 1 * q.val = win2_2.index t (1 : Fin 2) * 128 + 1 * q.val; omega
  exact point_eq (V c main_v55) (V c main_v56) (((cfg2.win 0).blk t).view.emb (ix2 p q))
    (((cfg2.win 2).blk t).view.emb (ix2 p q)) (((cfg2.win 1).blk t).view.emb (ix2 (0 : Fin 1) q)) h0 h1

/-- An index of the output array is in a grid point's block iff each coordinate is in the block's range on its axis. -/
theorem mem_blk (t : Fin cfg2.N) (i : S100000x128.Idx) :
    i ∈ ((cfg2.win 2).blk t).view.set ↔ ∀ a : Fin 2, win2_2.index t a * S10000x128.size a ≤ (i a).val
      ∧ (i a).val < win2_2.index t a * S10000x128.size a + S10000x128.size a := by
  show i ∈ ((View.whole main_v57).slice (win2_2.rect t)).set ↔ _
  rw [View.set_slice_whole, Rect.mem_set_unit]
  exact Iff.rfl

/-- The blocks of rows tile the output array: row r is in the block of grid point r / 10000, and every point writes back. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : (i 0).val / 10000 < grid2.N := by rw [N_2]; omega
  obtain ⟨e0, e1, e2, e3, e4, e5⟩ := idx_facts ⟨(i 0).val / 10000, hN⟩
  have e4' : win2_2.index ⟨(i 0).val / 10000, hN⟩ (0 : Fin 2) = (i 0).val / 10000 := e4
  refine ⟨⟨(i 0).val / 10000, hN⟩, flush2_2 _, ?_⟩
  rw [mem_blk]
  intro a
  match a with
  | ⟨0, _⟩ =>
    show win2_2.index ⟨(i 0).val / 10000, hN⟩ (0 : Fin 2) * 10000 ≤ (i 0).val
      ∧ (i 0).val < win2_2.index ⟨(i 0).val / 10000, hN⟩ (0 : Fin 2) * 10000 + 10000
    omega
  | ⟨1, _⟩ =>
    show win2_2.index ⟨(i 0).val / 10000, hN⟩ (1 : Fin 2) * 128 ≤ (i 1).val
      ∧ (i 1).val < win2_2.index ⟨(i 0).val / 10000, hN⟩ (1 : Fin 2) * 128 + 128
    omega

/-- The third pallas_call leaves in its output array its first operand plus the bias row, clamped at zero. -/
theorem value (c : Dev nD) :
    (dat2 (F := Ideal) V c).arrAt 2 cfg2.N = biasRelu (r := 100000) (c := 128) (V c main_v55) (V c main_v56) :=
  (dat2 (F := Ideal) V c).arrAt_eq_of_cover 2 (biasRelu (r := 100000) (c := 128) (V c main_v55) (V c main_v56))
    (fun t _ => flushed_eq V c t) cover

end Cert.KernelIdeal.Region2

end
-- ==== Proof.Region3.lean ====
/-
  What the fourth pallas_call (the three-layer perceptron on one block) leaves in its output array, as one function of the arrays it reads.
-/
import proofs.«165648_j7834020348011_1_alg».proof.Proof.Gen.KernelIdeal.Frame
import proofs.«165648_j7834020348011_1_alg».proof.Proof.SpecOps
import proofs.«165648_j7834020348011_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.SpecOps

variable (V : (c : Dev nD) → (b : Ref sig .tc) → Buf (Elt Ideal) ((c : Thread nD τ).loc b))

/-! ## The three matrix products of the body

  Each product of the body multiplies its two operands, after format changes that are the identity over the extended
  reals, into the zero accumulator: entry (p, q) is the sum over the shared coordinate. -/

/-- The first product, 512 × 128 by 128 × 256. -/
theorem prod1 (x : FVec Ideal S512x128 .f32) (w : FVec Ideal S128x256 .f32) :
    matmul (F := Ideal) dot_S512x128_S128x256_S512x256_1_0_0_1_n_n none (truncf .bf16 x bitsLt_bf16_f32)
        (truncf .bf16 w bitsLt_bf16_f32) (constant (F := Ideal) S512x256 .f32 0x00000000#32)
      = mm (r := 512) (k := 128) (c := 256) x w := by
  funext j
  obtain ⟨p, q, rfl⟩ : ∃ (p : Fin 512) (q : Fin 256), j = ix2 p q := ⟨j 0, j 1, eq_ix2 j⟩
  exact (Cert.LibDot.matmul_zero_at dot_S512x128_S128x256_S512x256_1_0_0_1_n_n rfl rfl rfl rfl rfl rfl none
    (truncf (F := Ideal) .bf16 x bitsLt_bf16_f32) (truncf (F := Ideal) .bf16 w bitsLt_bf16_f32) p q).trans rfl

/-- The second product, 512 × 256 by 256 × 128. -/
theorem prod2 (x : FVec Ideal S512x256 .f32) (w : FVec Ideal S256x128 .f32) :
    matmul (F := Ideal) dot_S512x256_S256x128_S512x128_1_0_0_1_n_n none (truncf .bf16 x bitsLt_bf16_f32)
        (truncf .bf16 w bitsLt_bf16_f32) (constant (F := Ideal) S512x128 .f32 0x00000000#32)
      = mm (r := 512) (k := 256) (c := 128) x w := by
  funext j
  obtain ⟨p, q, rfl⟩ : ∃ (p : Fin 512) (q : Fin 128), j = ix2 p q := ⟨j 0, j 1, eq_ix2 j⟩
  exact (Cert.LibDot.matmul_zero_at dot_S512x256_S256x128_S512x128_1_0_0_1_n_n rfl rfl rfl rfl rfl rfl none
    (truncf (F := Ideal) .bf16 x bitsLt_bf16_f32) (truncf (F := Ideal) .bf16 w bitsLt_bf16_f32) p q).trans rfl

/-- The third product, 512 × 128 by 128 × 2. -/
theorem prod3 (x : FVec Ideal S512x128 .f32) (w : FVec Ideal S128x2 .f32) :
    matmul (F := Ideal) dot_S512x128_S128x2_S512x2_1_0_0_1_n_n none (truncf .bf16 x bitsLt_bf16_f32)
        (truncf .bf16 w bitsLt_bf16_f32) (constant (F := Ideal) S512x2 .f32 0x00000000#32)
      = mm (r := 512) (k := 128) (c := 2) x w := by
  funext j
  obtain ⟨p, q, rfl⟩ : ∃ (p : Fin 512) (q : Fin 2), j = ix2 p q := ⟨j 0, j 1, eq_ix2 j⟩
  exact (Cert.LibDot.matmul_zero_at dot_S512x128_S128x2_S512x2_1_0_0_1_n_n rfl rfl rfl rfl rfl rfl none
    (truncf (F := Ideal) .bf16 x bitsLt_bf16_f32) (truncf (F := Ideal) .bf16 w bitsLt_bf16_f32) p q).trans rfl

/-! ## The bias rows -/

/-- The bias row of 256 entries read at entry (p, q) of its copy over 512 rows is its entry q. -/
theorem row1 (b : FVec Ideal S1x256 .f32) (p : Fin 512) (q : Fin 256) :
    broadcastTo S512x256 (shapeCast S1x256 b shapeCasts_S1x256_S1x256) broadcasts_S1x256_S512x256 (ix2 p q)
      = b (ix2 (0 : Fin 1) q) := by
  rw [shapeCast_self]
  exact broadcastTo_apply b broadcasts_S1x256_S512x256 (ix2 p q) (ix2 (0 : Fin 1) q) (fun a => by
    match a with
    | ⟨0, _⟩ => rfl
    | ⟨1, _⟩ => rfl)

/-- The bias row of 128 entries read at entry (p, q) of its copy over 512 rows is its entry q. -/
theorem row2 (b : FVec Ideal S1x128 .f32) (p : Fin 512) (q : Fin 128) :
    broadcastTo S512x128 (shapeCast S1x128 b shapeCasts_S1x128_S1x128) broadcasts_S1x128_S512x128 (ix2 p q)
      = b (ix2 (0 : Fin 1) q) := by
  rw [shapeCast_self]
  exact broadcastTo_apply b broadcasts_S1x128_S512x128 (ix2 p q) (ix2 (0 : Fin 1) q) (fun a => by
    match a with
    | ⟨0, _⟩ => rfl
    | ⟨1, _⟩ => rfl)

/-- The bias row of 2 entries read at entry (p, q) of its copy over 512 rows is its entry q. -/
theorem row3 (b : FVec Ideal S1x2 .f32) (p : Fin 512) (q : Fin 2) :
    broadcastTo S512x2 (shapeCast S1x2 b shapeCasts_S1x2_S1x2) broadcasts_S1x2_S512x2 (ix2 p q)
      = b (ix2 (0 : Fin 1) q) := by
  rw [shapeCast_self]
  exact broadcastTo_apply b broadcasts_S1x2_S512x2 (ix2 p q) (ix2 (0 : Fin 1) q) (fun a => by
    match a with
    | ⟨0, _⟩ => rfl
    | ⟨1, _⟩ => rfl)

/-- Adding the bias row to every row and clamping below at the zero word, 512 × 256. -/
theorem relu1 (a : FVec Ideal S512x256 .f32) (b : FVec Ideal S1x256 .f32) :
    maximumf (F := Ideal)
        (addf a (broadcastTo S512x256 (shapeCast S1x256 b shapeCasts_S1x256_S1x256) broadcasts_S1x256_S512x256))
        (broadcast S512x256 (Scalar.ofBits (F := Ideal) .f32 0x00000000#32))
      = biasRelu (r := 512) (c := 256) a b := by
  funext j
  obtain ⟨p, q, rfl⟩ : ∃ (p : Fin 512) (q : Fin 256), j = ix2 p q := ⟨j 0, j 1, eq_ix2 j⟩
  rw [maximumf_apply, addf_apply, row1, broadcast_apply, biasRelu_apply]
  show max (a (ix2 p q) + b (ix2 (0 : Fin 1) q)) (Ideal.ofBits .f32 0x00000000#32) = _
  rw [Ideal.ofBits_zero_f32]

/-- Adding the bias row to every row and clamping below at the zero word, 512 × 128. -/
theorem relu2 (a : FVec Ideal S512x128 .f32) (b : FVec Ideal S1x128 .f32) :
    maximumf (F := Ideal)
        (addf a (broadcastTo S512x128 (shapeCast S1x128 b shapeCasts_S1x128_S1x128) broadcasts_S1x128_S512x128))
        (broadcast S512x128 (Scalar.ofBits (F := Ideal) .f32 0x00000000#32))
      = biasRelu (r := 512) (c := 128) a b := by
  funext j
  obtain ⟨p, q, rfl⟩ : ∃ (p : Fin 512) (q : Fin 128), j = ix2 p q := ⟨j 0, j 1, eq_ix2 j⟩
  rw [maximumf_apply, addf_apply, row2, broadcast_apply, biasRelu_apply]
  show max (a (ix2 p q) + b (ix2 (0 : Fin 1) q)) (Ideal.ofBits .f32 0x00000000#32) = _
  rw [Ideal.ofBits_zero_f32]

/-- Adding the bias row to every row, 512 × 2. -/
theorem bias3 (a : FVec Ideal S512x2 .f32) (b : FVec Ideal S1x2 .f32) :
    addf (F := Ideal) a (broadcastTo S512x2 (shapeCast S1x2 b shapeCasts_S1x2_S1x2) broadcasts_S1x2_S512x2)
      = addRow (r := 512) (c := 2) a b := by
  funext j
  obtain ⟨p, q, rfl⟩ : ∃ (p : Fin 512) (q : Fin 2), j = ix2 p q := ⟨j 0, j 1, eq_ix2 j⟩
  rw [addf_apply, row3, addRow_apply]

/-! ## The body's payload -/

/-- What the body stores, of its seven loaded blocks: the three-layer perceptron of the first. -/
theorem pay_eq (x0 : Vec Ideal S512x128 .f32) (x1 : Vec Ideal S128x256 .f32) (x2 : Vec Ideal S1x256 .f32)
    (x3 : Vec Ideal S256x128 .f32) (x4 : Vec Ideal S1x128 .f32) (x5 : Vec Ideal S128x2 .f32) (x6 : Vec Ideal S1x2 .f32) :
    k3_pay1 (F := Ideal) x0 x1 x2 x3 x4 x5 x6
      = addRow (r := 512) (c := 2)
          (mm (r := 512) (k := 128) (c := 2)
            (biasRelu (r := 512) (c := 128)
              (mm (r := 512) (k := 256) (c := 128)
                (biasRelu (r := 512) (c := 256) (mm (r := 512) (k := 128) (c := 256) x0 x1) x2)
                x3)
              x4)
            x5)
          x6 := by
  unfold k3_pay1
  dsimp only
  rw [shapeCast_self x0, prod1, relu1, prod2, relu2, prod3, bias3]

/-! ## From the one block to the array -/

/-- The offset (0, 0) is the zero offset on every axis. -/
theorem hz : (![0, 0] : Fin 2 → Nat) = fun _ => 0 := funext fun a => by fin_cases a <;> rfl

/-- The printed index maps over the grid of one point: every window's block index is zero on both axes. -/
theorem idx_zero : ∀ t : Fin cfg3.N, win3_0.index t (0 : Fin 2) = 0
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0 :=
  (by decide +kernel : ∀ t : Fin grid3.N, _)

/-- Window 0's block at the point is its whole array. -/
theorem blk0_eq (c : Dev nD) (t : Fin cfg3.N) :
    (iblk3 (F := Ideal) V c 0 t : Vec Ideal S512x128 .f32) = V c main_v60 := by
  have e0 : win3_0.index t (0 : Fin 2) = 0 := (idx_zero t).1
  have e1 : win3_0.index t (1 : Fin 2) = 0 := (idx_zero t).2.1
  unfold iblk3
  funext j
  show V c main_v60 (((cfg3.win 0).blk t).view.emb j) = V c main_v60 j
  refine congrArg (V c main_v60) ?_
  funext a; apply Fin.ext
  match a with
  | ⟨0, _⟩ => show win3_0.index t (0 : Fin 2) * 512 + 1 * (j 0).val = (j 0).val; omega
  | ⟨1, _⟩ => show win3_0.index t (1 : Fin 2) * 128 + 1 * (j 1).val = (j 1).val; omega

/-- Window 1's block at the point is its whole array. -/
theorem blk1_eq (c : Dev nD) (t : Fin cfg3.N) :
    (iblk3 (F := Ideal) V c 1 t : Vec Ideal S128x256 .f32) = V c main_arg8 := by
  have e0 : win3_1.index t (0 : Fin 2) = 0 := (idx_zero t).2.2.1
  have e1 : win3_1.index t (1 : Fin 2) = 0 := (idx_zero t).2.2.2.1
  unfold iblk3
  funext j
  show V c main_arg8 (((cfg3.win 1).blk t).view.emb j) = V c main_arg8 j
  refine congrArg (V c main_arg8) ?_
  funext a; apply Fin.ext
  match a with
  | ⟨0, _⟩ => show win3_1.index t (0 : Fin 2) * 128 + 1 * (j 0).val = (j 0).val; omega
  | ⟨1, _⟩ => show win3_1.index t (1 : Fin 2) * 256 + 1 * (j 1).val = (j 1).val; omega

/-- Window 2's block at the point is its whole array. -/
theorem blk2_eq (c : Dev nD) (t : Fin cfg3.N) :
    (iblk3 (F := Ideal) V c 2 t : Vec Ideal S1x256 .f32) = V c main_v61 := by
  have e0 : win3_2.index t (0 : Fin 2) = 0 := (idx_zero t).2.2.2.2.1
  have e1 : win3_2.index t (1 : Fin 2) = 0 := (idx_zero t).2.2.2.2.2.1
  unfold iblk3
  funext j
  show V c main_v61 (((cfg3.win 2).blk t).view.emb j) = V c main_v61 j
  refine congrArg (V c main_v61) ?_
  funext a; apply Fin.ext
  match a with
  | ⟨0, _⟩ => show win3_2.index t (0 : Fin 2) * 1 + 1 * (j 0).val = (j 0).val; omega
  | ⟨1, _⟩ => show win3_2.index t (1 : Fin 2) * 256 + 1 * (j 1).val = (j 1).val; omega

/-- Window 3's block at the point is its whole array. -/
theorem blk3_eq (c : Dev nD) (t : Fin cfg3.N) :
    (iblk3 (F := Ideal) V c 3 t : Vec Ideal S256x128 .f32) = V c main_arg10 := by
  have e0 : win3_3.index t (0 : Fin 2) = 0 := (idx_zero t).2.2.2.2.2.2.1
  have e1 : win3_3.index t (1 : Fin 2) = 0 := (idx_zero t).2.2.2.2.2.2.2.1
  unfold iblk3
  funext j
  show V c main_arg10 (((cfg3.win 3).blk t).view.emb j) = V c main_arg10 j
  refine congrArg (V c main_arg10) ?_
  funext a; apply Fin.ext
  match a with
  | ⟨0, _⟩ => show win3_3.index t (0 : Fin 2) * 256 + 1 * (j 0).val = (j 0).val; omega
  | ⟨1, _⟩ => show win3_3.index t (1 : Fin 2) * 128 + 1 * (j 1).val = (j 1).val; omega

/-- Window 4's block at the point is its whole array. -/
theorem blk4_eq (c : Dev nD) (t : Fin cfg3.N) :
    (iblk3 (F := Ideal) V c 4 t : Vec Ideal S1x128 .f32) = V c main_v62 := by
  have e0 : win3_4.index t (0 : Fin 2) = 0 := (idx_zero t).2.2.2.2.2.2.2.2.1
  have e1 : win3_4.index t (1 : Fin 2) = 0 := (idx_zero t).2.2.2.2.2.2.2.2.2.1
  unfold iblk3
  funext j
  show V c main_v62 (((cfg3.win 4).blk t).view.emb j) = V c main_v62 j
  refine congrArg (V c main_v62) ?_
  funext a; apply Fin.ext
  match a with
  | ⟨0, _⟩ => show win3_4.index t (0 : Fin 2) * 1 + 1 * (j 0).val = (j 0).val; omega
  | ⟨1, _⟩ => show win3_4.index t (1 : Fin 2) * 128 + 1 * (j 1).val = (j 1).val; omega

/-- Window 5's block at the point is its whole array. -/
theorem blk5_eq (c : Dev nD) (t : Fin cfg3.N) :
    (iblk3 (F := Ideal) V c 5 t : Vec Ideal S128x2 .f32) = V c main_arg12 := by
  have e0 : win3_5.index t (0 : Fin 2) = 0 := (idx_zero t).2.2.2.2.2.2.2.2.2.2.1
  have e1 : win3_5.index t (1 : Fin 2) = 0 := (idx_zero t).2.2.2.2.2.2.2.2.2.2.2.1
  unfold iblk3
  funext j
  show V c main_arg12 (((cfg3.win 5).blk t).view.emb j) = V c main_arg12 j
  refine congrArg (V c main_arg12) ?_
  funext a; apply Fin.ext
  match a with
  | ⟨0, _⟩ => show win3_5.index t (0 : Fin 2) * 128 + 1 * (j 0).val = (j 0).val; omega
  | ⟨1, _⟩ => show win3_5.index t (1 : Fin 2) * 2 + 1 * (j 1).val = (j 1).val; omega

/-- Window 6's block at the point is its whole array. -/
theorem blk6_eq (c : Dev nD) (t : Fin cfg3.N) :
    (iblk3 (F := Ideal) V c 6 t : Vec Ideal S1x2 .f32) = V c main_v63 := by
  have e0 : win3_6.index t (0 : Fin 2) = 0 := (idx_zero t).2.2.2.2.2.2.2.2.2.2.2.2.1
  have e1 : win3_6.index t (1 : Fin 2) = 0 := (idx_zero t).2.2.2.2.2.2.2.2.2.2.2.2.2.1
  unfold iblk3
  funext j
  show V c main_v63 (((cfg3.win 6).blk t).view.emb j) = V c main_v63 j
  refine congrArg (V c main_v63) ?_
  funext a; apply Fin.ext
  match a with
  | ⟨0, _⟩ => show win3_6.index t (0 : Fin 2) * 1 + 1 * (j 0).val = (j 0).val; omega
  | ⟨1, _⟩ => show win3_6.index t (1 : Fin 2) * 2 + 1 * (j 1).val = (j 1).val; omega

/-- The three-layer perceptron of the region's input arrays. -/
abbrev mlp (c : Dev nD) : Mat 512 2 :=
  addRow (r := 512) (c := 2)
    (mm (r := 512) (k := 128) (c := 2)
      (biasRelu (r := 512) (c := 128)
        (mm (r := 512) (k := 256) (c := 128)
          (biasRelu (r := 512) (c := 256) (mm (r := 512) (k := 128) (c := 256) (V c main_v60) (V c main_arg8)) (V c main_v61))
          (V c main_arg10))
        (V c main_v62))
      (V c main_arg12))
    (V c main_v63)

/-- What the point writes back is the perceptron of the input arrays, read through the output's block. -/
theorem flushed_eq (c : Dev nD) (t : Fin cfg3.N) :
    (dat3 (F := Ideal) V c).flushed 7 t = ((cfg3.win 7).blk t).view.read (Elt Ideal) (mlp V c) := by
  show (cfg3.win 7).cut (grid3.coords t) ((dat3 (F := Ideal) V c).after 7 t) = _
  rw [after3_7]
  unfold out3_7
  rw [View.canon_unit_zero hz]
  simp only [View.ld_unit_zero (S := S512x128) hz, View.ld_unit_zero (S := S128x256) hz, View.ld_unit_zero (S := S1x256) hz,
    View.ld_unit_zero (S := S256x128) hz, View.ld_unit_zero (S := S1x128) hz, View.ld_unit_zero (S := S128x2) hz,
    View.ld_unit_zero (S := S1x2) hz]
  rw [pay_eq, blk0_eq V c t, blk1_eq V c t, blk2_eq V c t, blk3_eq V c t, blk4_eq V c t, blk5_eq V c t, blk6_eq V c t]
  have e0 : win3_7.index t (0 : Fin 2) = 0 := (idx_zero t).2.2.2.2.2.2.2.2.2.2.2.2.2.2.1
  have e1 : win3_7.index t (1 : Fin 2) = 0 := (idx_zero t).2.2.2.2.2.2.2.2.2.2.2.2.2.2.2
  funext j
  show mlp V c j = mlp V c (((cfg3.win 7).blk t).view.emb j)
  refine congrArg (mlp V c) ?_
  funext a; apply Fin.ext
  match a with
  | ⟨0, _⟩ => show (j 0).val = win3_7.index t (0 : Fin 2) * 512 + 1 * (j 0).val; omega
  | ⟨1, _⟩ => show (j 1).val = win3_7.index t (1 : Fin 2) * 2 + 1 * (j 1).val; omega

/-- An index of the output array is in the point's block iff each coordinate is in the block's range on its axis. -/
theorem mem_blk (t : Fin cfg3.N) (i : S512x2.Idx) :
    i ∈ ((cfg3.win 7).blk t).view.set ↔ ∀ a : Fin 2, win3_7.index t a * S512x2.size a ≤ (i a).val ∧ (i a).val < win3_7.index t a * S512x2.size a + S512x2.size a := by
  show i ∈ ((View.whole main_v64).slice (win3_7.rect t)).set ↔ _
  rw [View.set_slice_whole, Rect.mem_set_unit]
  exact Iff.rfl

/-- Every index of the output array is in the one point's block. -/
theorem cover (i : S512x2.Idx) :
    ∃ t : Fin cfg3.N, (cfg3.win 7).flush t = true ∧ i ∈ ((cfg3.win 7).blk t).view.set := by
  have t : Fin cfg3.N := ⟨0, by decide⟩
  have e0 : win3_7.index t (0 : Fin 2) = 0 := (idx_zero t).2.2.2.2.2.2.2.2.2.2.2.2.2.2.1
  have e1 : win3_7.index t (1 : Fin 2) = 0 := (idx_zero t).2.2.2.2.2.2.2.2.2.2.2.2.2.2.2
  have hi0 : (i 0).val < 512 := (i 0).isLt
  have hi1 : (i 1).val < 2 := (i 1).isLt
  refine ⟨t, flush3_7 t, ?_⟩
  rw [mem_blk]
  intro a
  match a with
  | ⟨0, _⟩ => show win3_7.index t (0 : Fin 2) * 512 ≤ (i 0).val ∧ (i 0).val < win3_7.index t (0 : Fin 2) * 512 + 512; omega
  | ⟨1, _⟩ => show win3_7.index t (1 : Fin 2) * 2 ≤ (i 1).val ∧ (i 1).val < win3_7.index t (1 : Fin 2) * 2 + 2; omega

/-- The fourth pallas_call leaves in its output array the three-layer perceptron of its first operand. -/
theorem value (c : Dev nD) :
    (dat3 (F := Ideal) V c).arrAt 7 cfg3.N
      = addRow (r := 512) (c := 2)
          (mm (r := 512) (k := 128) (c := 2)
            (biasRelu (r := 512) (c := 128)
              (mm (r := 512) (k := 256) (c := 128)
                (biasRelu (r := 512) (c := 256) (mm (r := 512) (k := 128) (c := 256) (V c main_v60) (V c main_arg8)) (V c main_v61))
                (V c main_arg10))
              (V c main_v62))
            (V c main_arg12))
          (V c main_v63) := by
  exact (dat3 (F := Ideal) V c).arrAt_eq_of_cover 7 (mlp V c) (fun t _ => flushed_eq V c t) cover

end Cert.KernelIdeal.Region3

end
-- ==== Proof.Shared.lean ====
/-
  The two irregular stages both programs apply in the same way, each named once as a function of the values that
  enter it: the edge aggregation (gather the source node's row for every edge, scale it by the edge's weight, add it
  into the destination node's row) and the per-graph readout (add every node's row into its graph's row). The
  reference's stages are these functions of its earlier stages.
-/
import proofs.«165648_j7834020348011_1_alg».proof.Proof.Gen.ReferenceIdeal.Read

noncomputable section

namespace Cert.ReferenceIdeal.Shared

open Cert.ReferenceIdeal Cert.ReferenceIdeal.Gen Cert.ReferenceIdeal.Read Idealize.ShloMosaic Idealize.ShloMosaic.TcCoe Idealize.ShloMosaic.StableHlo

variable {F : FTy → Type} [FloatOps F]

/-- Node numbers as gather indices: a negative number counts from the end (100000 is added to it); as a column. -/
def wrapCol (s : (⟨S1700000, .i32⟩ : BufTy).Contents (Elt F)) : (⟨S1700000x1, .i32⟩ : BufTy).Contents (Elt F) :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- The edge aggregation of node features `h` along edges `s → d` with edge weights `e`: into a zero array, row
    `d(k)` receives `h(s(k), ·) · e(k)` for every edge `k`. -/
def agg (h : (⟨S100000x128, .f32⟩ : BufTy).Contents (Elt F)) (s d : (⟨S1700000, .i32⟩ : BufTy).Contents (Elt F))
    (e : (⟨S1700000, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 d)
    (mulf (Host.gather gather_S100000x128_S1700000x1_S1700000x128_1_0_n_n_0_1_1128 h (wrapCol s))
      (broadcastInDim S1700000x128 ![0, 1] bcast_S1700000x1_S1700000x128_0_1
        (broadcastInDim S1700000x1 ![0] bcast_S1700000_S1700000x1_0 e)))

/-- The per-graph readout: into a zero array, row `g(n)` receives node `n`'s row, for every node. -/
def seg (h : (⟨S100000x128, .f32⟩ : BufTy).Contents (Elt F)) (g : (⟨S100000, .i32⟩ : BufTy).Contents (Elt F)) :
    (⟨S512x128, .f32⟩ : BufTy).Contents (Elt F) :=
  Host.scatterAdd scatter_S512x128_S100000x1_S100000x128_1_0_0_1
    (broadcastInDim S512x128 ![] bcast_S_S512x128 (constant S_ .f32 0x00000000#32))
    (broadcastInDim S100000x1 ![0] bcast_S100000_S100000x1_0 g) h

variable (x0 : (⟨S100000x128, .f32⟩ : BufTy).Contents (Elt F)) (x1 x2 : (⟨S1600000, .i32⟩ : BufTy).Contents (Elt F))
  (x3 : (⟨S100000, .i32⟩ : BufTy).Contents (Elt F)) (x4 : (⟨S128x128, .f32⟩ : BufTy).Contents (Elt F))
  (x5 : (⟨S128, .f32⟩ : BufTy).Contents (Elt F)) (x6 : (⟨S128x128, .f32⟩ : BufTy).Contents (Elt F))
  (x7 : (⟨S128, .f32⟩ : BufTy).Contents (Elt F))

/-- The first layer's aggregate is the edge aggregation of the first product. -/
theorem v40_eq : val_main_v40 (F := F) x0 x1 x2 x4
    = agg (val_main_v27 (F := F) x0 x4) (val_main_v1 (F := F) x1) (val_main_v2 (F := F) x2) (val_main_v26 (F := F) x1 x2) := rfl

/-- The second layer's aggregate is the edge aggregation of the second product. -/
theorem v58_eq : val_main_v58 (F := F) x0 x1 x2 x4 x5 x6
    = agg (val_main_v45 (F := F) x0 x1 x2 x4 x5 x6) (val_main_v1 (F := F) x1) (val_main_v2 (F := F) x2) (val_main_v26 (F := F) x1 x2) := rfl

/-- The graph features are the readout of the second layer's output. -/
theorem v65_eq : val_main_v65 (F := F) x0 x1 x2 x3 x4 x5 x6 x7 = seg (val_main_v62 (F := F) x0 x1 x2 x4 x5 x6 x7) x3 := rfl

end Cert.ReferenceIdeal.Shared

end
-- ==== Proof.HostReads.lean ====
/-
  What each stretch of host operations of the kernel's program leaves in the buffers the later stages read, as
  functions of the buffers the stretch reads — for any contents the stretch starts from. The first stretch computes
  the self-loop-augmented edge lists and the edge weights; the second and third are the edge aggregation and a bias
  recast as a row; the fourth is the per-graph readout and three biases recast as rows.
-/
import proofs.«165648_j7834020348011_1_alg».proof.Proof.Gen.KernelIdeal.Launch
import proofs.«165648_j7834020348011_1_alg».proof.Proof.Shared
import Idealize.ShloMosaic.Lib.StableHlo.Run

set_option maxRecDepth 16384

noncomputable section

namespace Cert.KernelIdeal.HostReads

open Idealize.ShloMosaic Idealize.ShloMosaic.TcCoe Idealize.ShloMosaic.StableHlo
open Cert.KernelIdeal Cert.KernelIdeal.Gen
open Cert.ReferenceIdeal.Read (val_main_v1 val_main_v2 val_main_v26)
open Cert.ReferenceIdeal.Shared (agg seg)

variable {F : FTy → Type} [FloatOps F]
variable (X : Valuation τ sig (Elt F))

/-- Proves that no operation of the literal list `ops` (named by the identifier given) writes a given literal buffer:
    each operation writes one literal reference, and it differs from that buffer. -/
macro "none_writes" ops:ident : tactic => `(tactic|
  exact List.forall_iff_forall_mem.mp (by
    simp only [$ops:ident, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, StableHlo.nary_writes,
      StableHlo.unaryIndexed_writes, Finset.mem_singleton]
    repeat' apply And.intro
    all_goals exact StableHlo.devRef_ne_of_ne (by decide)))

/-! ## The first stretch: the edge lists with the self loops appended, and the edge weights -/

set_option maxHeartbeats 8000000 in
theorem host0_v1 : after hostOps0 X (Proc.devRef .tc main_v1) = val_main_v1 (X (Proc.devRef .tc main_arg1)) := by
  after_results_simp
  rfl

set_option maxHeartbeats 8000000 in
theorem host0_v2 : after hostOps0 X (Proc.devRef .tc main_v2) = val_main_v2 (X (Proc.devRef .tc main_arg2)) := by
  after_results_simp
  rfl

set_option maxHeartbeats 16000000 in
theorem host0_v26 : after hostOps0 X (Proc.devRef .tc main_v26)
    = val_main_v26 (X (Proc.devRef .tc main_arg1)) (X (Proc.devRef .tc main_arg2)) := by
  after_results_simp
  rfl

/-! ## The second stretch: the edge aggregation of the first product, and the first bias as a row -/

set_option maxHeartbeats 8000000 in
theorem host1_v40 : after hostOps1 X (Proc.devRef .tc main_v40)
    = agg (X (Proc.devRef .tc main_v27)) (X (Proc.devRef .tc main_v1)) (X (Proc.devRef .tc main_v2)) (X (Proc.devRef .tc main_v26)) := by
  after_results_simp
  rfl

set_option maxHeartbeats 8000000 in
theorem host1_v41 : after hostOps1 X (Proc.devRef .tc main_v41)
    = shapeCast S1x128 (X (Proc.devRef .tc main_arg5)) shapeCasts_S128_S1x128 := by
  after_results_simp
  rfl

/-! ## The third stretch: the edge aggregation of the second product, and the second bias as a row -/

set_option maxHeartbeats 8000000 in
theorem host2_v55 : after hostOps2 X (Proc.devRef .tc main_v55)
    = agg (X (Proc.devRef .tc main_v42)) (X (Proc.devRef .tc main_v1)) (X (Proc.devRef .tc main_v2)) (X (Proc.devRef .tc main_v26)) := by
  after_results_simp
  rfl

set_option maxHeartbeats 8000000 in
theorem host2_v56 : after hostOps2 X (Proc.devRef .tc main_v56)
    = shapeCast S1x128 (X (Proc.devRef .tc main_arg7)) shapeCasts_S128_S1x128 := by
  after_results_simp
  rfl

/-! ## The fourth stretch: the per-graph readout, and the perceptron's three biases as rows -/

set_option maxHeartbeats 8000000 in
theorem host3_v60 : after hostOps3 X (Proc.devRef .tc main_v60)
    = seg (X (Proc.devRef .tc main_v57)) (X (Proc.devRef .tc main_arg3)) := by
  after_results_simp
  rfl

set_option maxHeartbeats 8000000 in
theorem host3_v61 : after hostOps3 X (Proc.devRef .tc main_v61)
    = shapeCast S1x256 (X (Proc.devRef .tc main_arg9)) shapeCasts_S256_S1x256 := by
  after_results_simp
  rfl

set_option maxHeartbeats 8000000 in
theorem host3_v62 : after hostOps3 X (Proc.devRef .tc main_v62)
    = shapeCast S1x128 (X (Proc.devRef .tc main_arg11)) shapeCasts_S128_S1x128 := by
  after_results_simp
  rfl

set_option maxHeartbeats 8000000 in
theorem host3_v63 : after hostOps3 X (Proc.devRef .tc main_v63)
    = shapeCast S1x2 (X (Proc.devRef .tc main_arg13)) shapeCasts_S2_S1x2 := by
  after_results_simp
  rfl

end Cert.KernelIdeal.HostReads

end
-- ==== Proof.LibCastBcast.lean ====
/-
  A rank-1 array recast as a one-column or a one-row matrix is the same array as the one
  `broadcast_in_dim` makes of it along that axis: both read, at every index, the vector's entry at the
  index's one non-unit coordinate.
-/
import Idealize.ShloMosaic.Lib.Pipeline.Value
import Idealize.ShloMosaic.Lib.ValueIdx

namespace Cert.LibCastBcast

open Idealize.ShloMosaic Idealize.ShloMosaic.ValueIdx

variable {α : Type}

/-- An `[a]` vector recast to the column `[a, 1]` is its `broadcast_in_dim` along axis 0. -/
theorem column_cast_eq_bcast {a : ℕ} (x : (⟨1, ![a]⟩ : Shape).Idx → α)
    (h : (⟨1, ![a]⟩ : Shape).ShapeCasts ⟨2, ![a, 1]⟩)
    (h' : (⟨1, ![a]⟩ : Shape).BroadcastsInDim (⟨2, ![a, 1]⟩ : Shape) ![0]) :
    shapeCast ⟨2, ![a, 1]⟩ x h = broadcastInDim (⟨2, ![a, 1]⟩ : Shape) ![0] h' x := by
  funext j
  obtain ⟨p, u, rfl⟩ : ∃ (p : Fin a) (u : Fin 1), j = ix2 p u := ⟨j 0, j 1, eq_ix2 j⟩
  have hu : u.val = 0 := by omega
  refine (shapeCast_apply x h _ (ix1 p) ?_).trans (broadcastInDim_apply _ h' x _ (ix1 p) fun ax => ?_).symm
  · rw [Shape.rowMajor_val_two, Shape.rowMajor_val_one]
    show p.val = p.val * 1 + u.val
    rw [hu, Nat.mul_one, Nat.add_zero]
  · match ax with
    | ⟨0, _⟩ =>
      show p.val = if a = 1 then 0 else p.val
      split
      · have := p.isLt; omega
      · rfl

/-- A `[b]` vector recast to the row `[1, b]` is its `broadcast_in_dim` along axis 1. -/
theorem row_cast_eq_bcast {b : ℕ} (x : (⟨1, ![b]⟩ : Shape).Idx → α)
    (h : (⟨1, ![b]⟩ : Shape).ShapeCasts ⟨2, ![1, b]⟩)
    (h' : (⟨1, ![b]⟩ : Shape).BroadcastsInDim (⟨2, ![1, b]⟩ : Shape) ![1]) :
    shapeCast ⟨2, ![1, b]⟩ x h = broadcastInDim (⟨2, ![1, b]⟩ : Shape) ![1] h' x := by
  funext j
  obtain ⟨u, q, rfl⟩ : ∃ (u : Fin 1) (q : Fin b), j = ix2 u q := ⟨j 0, j 1, eq_ix2 j⟩
  have hu : u.val = 0 := by omega
  refine (shapeCast_apply x h _ (ix1 q) ?_).trans (broadcastInDim_apply _ h' x _ (ix1 q) fun ax => ?_).symm
  · rw [Shape.rowMajor_val_two, Shape.rowMajor_val_one]
    show q.val = u.val * b + q.val
    rw [hu, Nat.zero_mul, Nat.zero_add]
  · match ax with
    | ⟨0, _⟩ =>
      show q.val = if b = 1 then 0 else q.val
      split
      · have := q.isLt; omega
      · rfl

end Cert.LibCastBcast
-- ==== Proof.RefStages.lean ====
/-
  The reference's dense stages over the extended reals, each as one of the three matrix functions of its earlier
  stages: a host matrix product is the sum over the shared axis; "add the broadcast bias, take the maximum with the
  zero array" is the bias-and-clamp; a bias recast as a one-row matrix is the bias broadcast to one row.
-/
import proofs.«165648_j7834020348011_1_alg».proof.Proof.Gen.ReferenceIdeal.Read
import proofs.«165648_j7834020348011_1_alg».proof.Proof.SpecOps
import proofs.«165648_j7834020348011_1_alg».proof.Proof.LibDot
import proofs.«165648_j7834020348011_1_alg».proof.Proof.LibCastBcast
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefStages

open Cert.ReferenceIdeal Cert.ReferenceIdeal.Gen Cert.ReferenceIdeal.Read Idealize.ShloMosaic Idealize.ShloMosaic.TcCoe Idealize.ShloMosaic.ValueIdx
open Cert.SpecOps

variable (x0 : (⟨S100000x128, .f32⟩ : BufTy).Contents (Elt Ideal)) (x1 x2 : (⟨S1600000, .i32⟩ : BufTy).Contents (Elt Ideal))
  (x3 : (⟨S100000, .i32⟩ : BufTy).Contents (Elt Ideal)) (x4 : (⟨S128x128, .f32⟩ : BufTy).Contents (Elt Ideal))
  (x5 : (⟨S128, .f32⟩ : BufTy).Contents (Elt Ideal)) (x6 : (⟨S128x128, .f32⟩ : BufTy).Contents (Elt Ideal))
  (x7 : (⟨S128, .f32⟩ : BufTy).Contents (Elt Ideal)) (x8 : (⟨S128x256, .f32⟩ : BufTy).Contents (Elt Ideal))
  (x9 : (⟨S256, .f32⟩ : BufTy).Contents (Elt Ideal)) (x10 : (⟨S256x128, .f32⟩ : BufTy).Contents (Elt Ideal))
  (x11 : (⟨S128, .f32⟩ : BufTy).Contents (Elt Ideal)) (x12 : (⟨S128x2, .f32⟩ : BufTy).Contents (Elt Ideal))
  (x13 : (⟨S2, .f32⟩ : BufTy).Contents (Elt Ideal))

/-! ## The three matrix functions, from the operations the reference spells them with -/

/-- The host's product with the plain dimension numbers (contract the left columns with the right rows, no batch
    axis) is the matrix product. -/
theorem hostDot_eq_mm {R K C : Nat} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : Mat R K) (w : Mat K C) : Host.dotGeneral d none x w = mm x w := by
  funext i
  obtain ⟨p, q, rfl⟩ : ∃ (p : Fin R) (q : Fin C), i = ix2 p q := ⟨i 0, i 1, eq_ix2 i⟩
  rw [mm_apply]
  exact Cert.LibDot.dotGeneral_at d hl hr hln hrn hlb hrb none .single x w p q

/-- A one-row matrix broadcast down the rows reads, at (p, q), the row's entry q. -/
theorem bcastRow_at {R C : Nat} (b : Mat 1 C)
    (h : (⟨2, ![1, C]⟩ : Shape).BroadcastsInDim (⟨2, ![R, C]⟩ : Shape) ![0, 1]) (p : Fin R) (q : Fin C) :
    broadcastInDim (⟨2, ![R, C]⟩ : Shape) ![0, 1] h b (ix2 p q) = b (ix2 (0 : Fin 1) q) :=
  broadcastInDim_apply _ h b _ _ fun ax => by
    match ax with
    | ⟨0, _⟩ =>
      show (0 : ℕ) = if (1 : ℕ) = 1 then 0 else p.val
      rw [if_pos rfl]
    | ⟨1, _⟩ =>
      show q.val = if C = 1 then 0 else q.val
      split
      · have := q.isLt; omega
      · rfl

/-- The zero scalar broadcast to a matrix is zero at every entry. -/
theorem bcastZero_at {R C : Nat}
    (h : (⟨0, ![]⟩ : Shape).BroadcastsInDim (⟨2, ![R, C]⟩ : Shape) ![]) (i : (⟨2, ![R, C]⟩ : Shape).Idx) :
    broadcastInDim (⟨2, ![R, C]⟩ : Shape) ![] h (constant (F := Ideal) ⟨0, ![]⟩ .f32 0x00000000#32) i = 0 := by
  rw [broadcastInDim_apply _ h _ i ix0 (fun a => a.elim0), constant_apply, Ideal.ofBits_zero_f32]

/-- "Add the broadcast bias row, take the maximum with the zero array" is the bias-and-clamp. -/
theorem ops_eq_biasRelu {R C : Nat} (a : Mat R C) (b : Mat 1 C)
    (h : (⟨2, ![1, C]⟩ : Shape).BroadcastsInDim (⟨2, ![R, C]⟩ : Shape) ![0, 1])
    (h' : (⟨0, ![]⟩ : Shape).BroadcastsInDim (⟨2, ![R, C]⟩ : Shape) ![]) :
    maximumf (addf a (broadcastInDim (⟨2, ![R, C]⟩ : Shape) ![0, 1] h b))
        (broadcastInDim (⟨2, ![R, C]⟩ : Shape) ![] h' (constant (F := Ideal) ⟨0, ![]⟩ .f32 0x00000000#32))
      = biasRelu a b := by
  funext i
  obtain ⟨p, q, rfl⟩ : ∃ (p : Fin R) (q : Fin C), i = ix2 p q := ⟨i 0, i 1, eq_ix2 i⟩
  rw [biasRelu_apply, maximumf_apply, addf_apply, bcastRow_at, bcastZero_at]

/-- "Add the broadcast bias row" is the bias addition. -/
theorem ops_eq_addRow {R C : Nat} (a : Mat R C) (b : Mat 1 C)
    (h : (⟨2, ![1, C]⟩ : Shape).BroadcastsInDim (⟨2, ![R, C]⟩ : Shape) ![0, 1]) :
    addf a (broadcastInDim (⟨2, ![R, C]⟩ : Shape) ![0, 1] h b) = addRow a b := by
  funext i
  obtain ⟨p, q, rfl⟩ : ∃ (p : Fin R) (q : Fin C), i = ix2 p q := ⟨i 0, i 1, eq_ix2 i⟩
  rw [addRow_apply, addf_apply, bcastRow_at]

/-! ## The stages -/

/-- The first product. -/
theorem v27_eq : val_main_v27 (F := Ideal) x0 x4 = mm (r := 100000) (k := 128) (c := 128) x0 x4 := by
  unfold val_main_v27
  exact hostDot_eq_mm (R := 100000) (K := 128) (C := 128) _ rfl rfl rfl rfl rfl rfl x0 x4

/-- The second product, of the first layer's biased and clamped aggregate. -/
theorem v45_eq : val_main_v45 (F := Ideal) x0 x1 x2 x4 x5 x6
    = mm (r := 100000) (k := 128) (c := 128)
        (biasRelu (r := 100000) (c := 128) (val_main_v40 (F := Ideal) x0 x1 x2 x4) (val_main_v41 (F := Ideal) x5)) x6 := by
  unfold val_main_v45 val_main_v44 val_main_v43 val_main_v42 val_main_call0_v0 val_main_call0_cst
  rw [ops_eq_biasRelu (R := 100000) (C := 128)]
  exact hostDot_eq_mm (R := 100000) (K := 128) (C := 128) _ rfl rfl rfl rfl rfl rfl _ x6

/-- The second layer's output: its aggregate, biased and clamped. -/
theorem v62_eq : val_main_v62 (F := Ideal) x0 x1 x2 x4 x5 x6 x7
    = biasRelu (r := 100000) (c := 128) (val_main_v58 (F := Ideal) x0 x1 x2 x4 x5 x6) (val_main_v59 (F := Ideal) x7) := by
  unfold val_main_v62 val_main_v61 val_main_v60 val_main_call1_v0 val_main_call1_cst
  exact ops_eq_biasRelu (R := 100000) (C := 128) _ _ _ _

/-- The result: the three-layer perceptron of the graph features. -/
theorem v79_eq : val_main_v79 (F := Ideal) x0 x1 x2 x3 x4 x5 x6 x7 x8 x9 x10 x11 x12 x13
    = addRow (r := 512) (c := 2)
        (mm (r := 512) (k := 128) (c := 2)
          (biasRelu (r := 512) (c := 128)
            (mm (r := 512) (k := 256) (c := 128)
              (biasRelu (r := 512) (c := 256)
                (mm (r := 512) (k := 128) (c := 256) (val_main_v65 (F := Ideal) x0 x1 x2 x3 x4 x5 x6 x7) x8)
                (val_main_v67 (F := Ideal) x9))
              x10)
            (val_main_v72 (F := Ideal) x11))
          x12)
        (val_main_v77 (F := Ideal) x13) := by
  have e66 : val_main_v66 (F := Ideal) x0 x1 x2 x3 x4 x5 x6 x7 x8
      = mm (r := 512) (k := 128) (c := 256) (val_main_v65 (F := Ideal) x0 x1 x2 x3 x4 x5 x6 x7) x8 := by
    unfold val_main_v66
    exact hostDot_eq_mm (R := 512) (K := 128) (C := 256) _ rfl rfl rfl rfl rfl rfl _ x8
  have e70 : val_main_v70 (F := Ideal) x0 x1 x2 x3 x4 x5 x6 x7 x8 x9
      = biasRelu (r := 512) (c := 256) (val_main_v66 (F := Ideal) x0 x1 x2 x3 x4 x5 x6 x7 x8) (val_main_v67 (F := Ideal) x9) := by
    unfold val_main_v70 val_main_v69 val_main_v68 val_main_call2_v0 val_main_call2_cst
    exact ops_eq_biasRelu (R := 512) (C := 256) _ _ _ _
  have e71 : val_main_v71 (F := Ideal) x0 x1 x2 x3 x4 x5 x6 x7 x8 x9 x10
      = mm (r := 512) (k := 256) (c := 128) (val_main_v70 (F := Ideal) x0 x1 x2 x3 x4 x5 x6 x7 x8 x9) x10 := by
    unfold val_main_v71
    exact hostDot_eq_mm (R := 512) (K := 256) (C := 128) _ rfl rfl rfl rfl rfl rfl _ x10
  have e75 : val_main_v75 (F := Ideal) x0 x1 x2 x3 x4 x5 x6 x7 x8 x9 x10 x11
      = biasRelu (r := 512) (c := 128) (val_main_v71 (F := Ideal) x0 x1 x2 x3 x4 x5 x6 x7 x8 x9 x10) (val_main_v72 (F := Ideal) x11) := by
    unfold val_main_v75 val_main_v74 val_main_v73 val_main_call3_v0 val_main_call3_cst
    exact ops_eq_biasRelu (R := 512) (C := 128) _ _ _ _
  have e76 : val_main_v76 (F := Ideal) x0 x1 x2 x3 x4 x5 x6 x7 x8 x9 x10 x11 x12
      = mm (r := 512) (k := 128) (c := 2) (val_main_v75 (F := Ideal) x0 x1 x2 x3 x4 x5 x6 x7 x8 x9 x10 x11) x12 := by
    unfold val_main_v76
    exact hostDot_eq_mm (R := 512) (K := 128) (C := 2) _ rfl rfl rfl rfl rfl rfl _ x12
  have e79 : val_main_v79 (F := Ideal) x0 x1 x2 x3 x4 x5 x6 x7 x8 x9 x10 x11 x12 x13
      = addRow (r := 512) (c := 2) (val_main_v76 (F := Ideal) x0 x1 x2 x3 x4 x5 x6 x7 x8 x9 x10 x11 x12) (val_main_v77 (F := Ideal) x13) := by
    unfold val_main_v79 val_main_v78
    exact ops_eq_addRow (R := 512) (C := 2) _ _ _
  rw [e79, e76, e75, e71, e70, e66]

/-- A 128-vector recast as a one-row matrix is the reference's one-row broadcast of it (three stages of that form). -/
theorem row128_v41 (h : S128.ShapeCasts S1x128) : shapeCast S1x128 x5 h = val_main_v41 (F := Ideal) x5 := by
  unfold val_main_v41
  exact Cert.LibCastBcast.row_cast_eq_bcast (b := 128) x5 h _
theorem row128_v59 (h : S128.ShapeCasts S1x128) : shapeCast S1x128 x7 h = val_main_v59 (F := Ideal) x7 := by
  unfold val_main_v59
  exact Cert.LibCastBcast.row_cast_eq_bcast (b := 128) x7 h _
theorem row128_v72 (h : S128.ShapeCasts S1x128) : shapeCast S1x128 x11 h = val_main_v72 (F := Ideal) x11 := by
  unfold val_main_v72
  exact Cert.LibCastBcast.row_cast_eq_bcast (b := 128) x11 h _
/-- The same for the 256-vector and the 2-vector. -/
theorem row256_v67 (h : S256.ShapeCasts S1x256) : shapeCast S1x256 x9 h = val_main_v67 (F := Ideal) x9 := by
  unfold val_main_v67
  exact Cert.LibCastBcast.row_cast_eq_bcast (b := 256) x9 h _
theorem row2_v77 (h : S2.ShapeCasts S1x2) : shapeCast S1x2 x13 h = val_main_v77 (F := Ideal) x13 := by
  unfold val_main_v77
  exact Cert.LibCastBcast.row_cast_eq_bcast (b := 2) x13 h _

end Cert.ReferenceIdeal.RefStages

end
-- ==== Proof.KernelValue.lean ====
/-
  The kernel program's result buffer, read back through its four regions and four host stretches to the launch
  memory: stage by stage it holds the reference's stage of the same arguments. The host stretches are the same
  operations in both programs (the edge lists and weights, the two edge aggregations, the per-graph readout); each
  region is the dense stage the reference computes on the host at that place.
-/
import proofs.«165648_j7834020348011_1_alg».proof.Proof.Gen.KernelIdeal.Frame
import proofs.«165648_j7834020348011_1_alg».proof.Proof.Region0
import proofs.«165648_j7834020348011_1_alg».proof.Proof.Region1
import proofs.«165648_j7834020348011_1_alg».proof.Proof.Region2
import proofs.«165648_j7834020348011_1_alg».proof.Proof.Region3
import proofs.«165648_j7834020348011_1_alg».proof.Proof.HostReads
import proofs.«165648_j7834020348011_1_alg».proof.Proof.RefStages
import proofs.«165648_j7834020348011_1_alg».proof.Proof.Shared

set_option maxRecDepth 16384

noncomputable section

namespace Cert.KernelIdeal.KernelValue

open Idealize.ShloMosaic Idealize.ShloMosaic.TcCoe Idealize.ShloMosaic.StableHlo
open Idealize.SL.Sem
open Cert.KernelIdeal Cert.KernelIdeal.Gen Cert.KernelIdeal.HostReads
open Cert.ReferenceIdeal.Read (val_main_v1 val_main_v2 val_main_v26 val_main_v27 val_main_v40 val_main_v41 val_main_v45
  val_main_v58 val_main_v59 val_main_v62 val_main_v65 val_main_v67 val_main_v72 val_main_v77 val_main_v79)

variable (m : (ℓ : Loc nD τ sig) → Buf (Elt Ideal) ℓ) (ρ : Dev nD → PrngReg) (c : Dev nD)

/-- The launch contents of a buffer. -/
abbrev at0 (r : Ref sig .tc) : Buf (Elt Ideal) ((c : Thread nD τ).loc r) := m ((c : Thread nD τ).loc r)

/-! ## A buffer nothing has written yet still holds its launch contents -/

section Untouched

variable (r : Ref sig .tc)
  (h0 : ∀ op ∈ (hostOps0 : List (HloOp τ sig (Elt Ideal))), (Proc.devRef .tc r : DevRef τ sig) ∉ op.writes)
  (n0 : ∀ w, Pipeline.arrRef spec0 w ≠ r)
  (h1 : ∀ op ∈ (hostOps1 : List (HloOp τ sig (Elt Ideal))), (Proc.devRef .tc r : DevRef τ sig) ∉ op.writes)
  (n1 : ∀ w, Pipeline.arrRef spec1 w ≠ r)
  (h2 : ∀ op ∈ (hostOps2 : List (HloOp τ sig (Elt Ideal))), (Proc.devRef .tc r : DevRef τ sig) ∉ op.writes)
  (n2 : ∀ w, Pipeline.arrRef spec2 w ≠ r)
  (h3 : ∀ op ∈ (hostOps3 : List (HloOp τ sig (Elt Ideal))), (Proc.devRef .tc r : DevRef τ sig) ∉ op.writes)

include h0 in
theorem up1 : W1 m ρ c (Proc.devRef .tc r) = at0 m c r :=
  (after_of_forall_not_mem (b := Proc.devRef .tc r) _ _ h0).trans rfl
include h0 n0 in
theorem up2 : W2 m ρ c (Proc.devRef .tc r) = at0 m c r := (W2_of_ne m ρ c r n0).trans (up1 m ρ c r h0)
include h0 n0 h1 in
theorem up3 : W3 m ρ c (Proc.devRef .tc r) = at0 m c r :=
  (after_of_forall_not_mem (b := Proc.devRef .tc r) _ _ h1).trans (up2 m ρ c r h0 n0)
include h0 n0 h1 n1 in
theorem up4 : W4 m ρ c (Proc.devRef .tc r) = at0 m c r := (W4_of_ne m ρ c r n1).trans (up3 m ρ c r h0 n0 h1)
include h0 n0 h1 n1 h2 in
theorem up5 : W5 m ρ c (Proc.devRef .tc r) = at0 m c r :=
  (after_of_forall_not_mem (b := Proc.devRef .tc r) _ _ h2).trans (up4 m ρ c r h0 n0 h1 n1)
include h0 n0 h1 n1 h2 n2 in
theorem up6 : W6 m ρ c (Proc.devRef .tc r) = at0 m c r := (W6_of_ne m ρ c r n2).trans (up5 m ρ c r h0 n0 h1 n1 h2)
include h0 n0 h1 n1 h2 n2 h3 in
theorem up7 : W7 m ρ c (Proc.devRef .tc r) = at0 m c r :=
  (after_of_forall_not_mem (b := Proc.devRef .tc r) _ _ h3).trans (up6 m ρ c r h0 n0 h1 n1 h2 n2)

include n0 in
/-- A buffer the first stretch wrote, untouched by the first region. -/
theorem carry2 : W2 m ρ c (Proc.devRef .tc r) = W1 m ρ c (Proc.devRef .tc r) := W2_of_ne m ρ c r n0
include n0 h1 n1 in
/-- … and untouched by the second stretch and the second region. -/
theorem carry4 : W4 m ρ c (Proc.devRef .tc r) = W1 m ρ c (Proc.devRef .tc r) :=
  (W4_of_ne m ρ c r n1).trans ((after_of_forall_not_mem (b := Proc.devRef .tc r) _ _ h1).trans (W2_of_ne m ρ c r n0))

end Untouched

/-! ## The first stretch: the edge lists and the edge weights -/

theorem W1_v1 : W1 m ρ c (Proc.devRef .tc main_v1) = val_main_v1 (at0 m c main_arg1) := host0_v1 (W0 m ρ c)
theorem W1_v2 : W1 m ρ c (Proc.devRef .tc main_v2) = val_main_v2 (at0 m c main_arg2) := host0_v2 (W0 m ρ c)
theorem W1_v26 : W1 m ρ c (Proc.devRef .tc main_v26) = val_main_v26 (at0 m c main_arg1) (at0 m c main_arg2) :=
  host0_v26 (W0 m ρ c)

/-! ## The first region: the first product -/

theorem W2_v27 : W2 m ρ c (Proc.devRef .tc main_v27) = val_main_v27 (at0 m c main_arg0) (at0 m c main_arg4) := by
  refine (W2_arr m ρ c 2).trans ((Region0.value (V1 m ρ) c).trans ?_)
  rw [show V1 m ρ c main_arg0 = at0 m c main_arg0 from up1 m ρ c main_arg0 (by none_writes hostOps0),
    show V1 m ρ c main_arg4 = at0 m c main_arg4 from up1 m ρ c main_arg4 (by none_writes hostOps0)]
  exact (Cert.ReferenceIdeal.RefStages.v27_eq _ _).symm

/-! ## The second stretch: the first aggregate and the first bias row -/

theorem W3_v40 : W3 m ρ c (Proc.devRef .tc main_v40)
    = val_main_v40 (at0 m c main_arg0) (at0 m c main_arg1) (at0 m c main_arg2) (at0 m c main_arg4) := by
  refine (host1_v40 (W2 m ρ c)).trans ?_
  rw [W2_v27 m ρ c, (carry2 m ρ c main_v1 (by decide)).trans (W1_v1 m ρ c),
    (carry2 m ρ c main_v2 (by decide)).trans (W1_v2 m ρ c), (carry2 m ρ c main_v26 (by decide)).trans (W1_v26 m ρ c)]
  exact (Cert.ReferenceIdeal.Shared.v40_eq _ _ _ _).symm

theorem W3_v41 : W3 m ρ c (Proc.devRef .tc main_v41) = val_main_v41 (at0 m c main_arg5) := by
  refine (host1_v41 (W2 m ρ c)).trans ?_
  rw [up2 m ρ c main_arg5 (by none_writes hostOps0) (by decide)]
  exact Cert.ReferenceIdeal.RefStages.row128_v41 _ _

/-! ## The second region: the second product of the biased, clamped first aggregate -/

theorem W4_v42 : W4 m ρ c (Proc.devRef .tc main_v42)
    = val_main_v45 (at0 m c main_arg0) (at0 m c main_arg1) (at0 m c main_arg2) (at0 m c main_arg4) (at0 m c main_arg5)
        (at0 m c main_arg6) := by
  refine (W4_arr m ρ c 3).trans ((Region1.value (V3 m ρ) c).trans ?_)
  rw [show V3 m ρ c main_v40 = _ from W3_v40 m ρ c, show V3 m ρ c main_v41 = _ from W3_v41 m ρ c,
    show V3 m ρ c main_arg6 = at0 m c main_arg6 from
      up3 m ρ c main_arg6 (by none_writes hostOps0) (by decide) (by none_writes hostOps1)]
  exact (Cert.ReferenceIdeal.RefStages.v45_eq _ _ _ _ _ _).symm

/-! ## The third stretch: the second aggregate and the second bias row -/

theorem W5_v55 : W5 m ρ c (Proc.devRef .tc main_v55)
    = val_main_v58 (at0 m c main_arg0) (at0 m c main_arg1) (at0 m c main_arg2) (at0 m c main_arg4) (at0 m c main_arg5)
        (at0 m c main_arg6) := by
  refine (host2_v55 (W4 m ρ c)).trans ?_
  rw [W4_v42 m ρ c,
    (carry4 m ρ c main_v1 (by decide) (by none_writes hostOps1) (by decide)).trans (W1_v1 m ρ c),
    (carry4 m ρ c main_v2 (by decide) (by none_writes hostOps1) (by decide)).trans (W1_v2 m ρ c),
    (carry4 m ρ c main_v26 (by decide) (by none_writes hostOps1) (by decide)).trans (W1_v26 m ρ c)]
  exact (Cert.ReferenceIdeal.Shared.v58_eq _ _ _ _ _ _).symm

theorem W5_v56 : W5 m ρ c (Proc.devRef .tc main_v56) = val_main_v59 (at0 m c main_arg7) := by
  refine (host2_v56 (W4 m ρ c)).trans ?_
  rw [up4 m ρ c main_arg7 (by none_writes hostOps0) (by decide) (by none_writes hostOps1) (by decide)]
  exact Cert.ReferenceIdeal.RefStages.row128_v59 _ _

/-! ## The third region: the biased, clamped second aggregate -/

theorem W6_v57 : W6 m ρ c (Proc.devRef .tc main_v57)
    = val_main_v62 (at0 m c main_arg0) (at0 m c main_arg1) (at0 m c main_arg2) (at0 m c main_arg4) (at0 m c main_arg5)
        (at0 m c main_arg6) (at0 m c main_arg7) := by
  refine (W6_arr m ρ c 2).trans ((Region2.value (V5 m ρ) c).trans ?_)
  rw [show V5 m ρ c main_v55 = _ from W5_v55 m ρ c, show V5 m ρ c main_v56 = _ from W5_v56 m ρ c]
  exact (Cert.ReferenceIdeal.RefStages.v62_eq _ _ _ _ _ _ _).symm

/-! ## The fourth stretch: the graph features and the perceptron's bias rows -/

theorem W7_v60 : W7 m ρ c (Proc.devRef .tc main_v60)
    = val_main_v65 (at0 m c main_arg0) (at0 m c main_arg1) (at0 m c main_arg2) (at0 m c main_arg3) (at0 m c main_arg4)
        (at0 m c main_arg5) (at0 m c main_arg6) (at0 m c main_arg7) := by
  refine (host3_v60 (W6 m ρ c)).trans ?_
  rw [W6_v57 m ρ c, up6 m ρ c main_arg3 (by none_writes hostOps0) (by decide) (by none_writes hostOps1) (by decide)
    (by none_writes hostOps2) (by decide)]
  exact (Cert.ReferenceIdeal.Shared.v65_eq _ _ _ _ _ _ _ _).symm

theorem W7_v61 : W7 m ρ c (Proc.devRef .tc main_v61) = val_main_v67 (at0 m c main_arg9) := by
  refine (host3_v61 (W6 m ρ c)).trans ?_
  rw [up6 m ρ c main_arg9 (by none_writes hostOps0) (by decide) (by none_writes hostOps1) (by decide)
    (by none_writes hostOps2) (by decide)]
  exact Cert.ReferenceIdeal.RefStages.row256_v67 _ _

theorem W7_v62 : W7 m ρ c (Proc.devRef .tc main_v62) = val_main_v72 (at0 m c main_arg11) := by
  refine (host3_v62 (W6 m ρ c)).trans ?_
  rw [up6 m ρ c main_arg11 (by none_writes hostOps0) (by decide) (by none_writes hostOps1) (by decide)
    (by none_writes hostOps2) (by decide)]
  exact Cert.ReferenceIdeal.RefStages.row128_v72 _ _

theorem W7_v63 : W7 m ρ c (Proc.devRef .tc main_v63) = val_main_v77 (at0 m c main_arg13) := by
  refine (host3_v63 (W6 m ρ c)).trans ?_
  rw [up6 m ρ c main_arg13 (by none_writes hostOps0) (by decide) (by none_writes hostOps1) (by decide)
    (by none_writes hostOps2) (by decide)]
  exact Cert.ReferenceIdeal.RefStages.row2_v77 _ _

/-! ## The fourth region: the perceptron — the result -/

set_option maxHeartbeats 4000000 in
theorem W8_v64 : W8 m ρ c (Proc.devRef .tc main_v64)
    = val_main_v79 (at0 m c main_arg0) (at0 m c main_arg1) (at0 m c main_arg2) (at0 m c main_arg3) (at0 m c main_arg4)
        (at0 m c main_arg5) (at0 m c main_arg6) (at0 m c main_arg7) (at0 m c main_arg8) (at0 m c main_arg9)
        (at0 m c main_arg10) (at0 m c main_arg11) (at0 m c main_arg12) (at0 m c main_arg13) := by
  refine (W8_arr m ρ c 7).trans ((Region3.value (V7 m ρ) c).trans ?_)
  rw [show V7 m ρ c main_v60 = _ from W7_v60 m ρ c, show V7 m ρ c main_v61 = _ from W7_v61 m ρ c,
    show V7 m ρ c main_v62 = _ from W7_v62 m ρ c, show V7 m ρ c main_v63 = _ from W7_v63 m ρ c,
    show V7 m ρ c main_arg8 = at0 m c main_arg8 from
      up7 m ρ c main_arg8 (by none_writes hostOps0) (by decide) (by none_writes hostOps1) (by decide)
        (by none_writes hostOps2) (by decide) (by none_writes hostOps3),
    show V7 m ρ c main_arg10 = at0 m c main_arg10 from
      up7 m ρ c main_arg10 (by none_writes hostOps0) (by decide) (by none_writes hostOps1) (by decide)
        (by none_writes hostOps2) (by decide) (by none_writes hostOps3),
    show V7 m ρ c main_arg12 = at0 m c main_arg12 from
      up7 m ρ c main_arg12 (by none_writes hostOps0) (by decide) (by none_writes hostOps1) (by decide)
        (by none_writes hostOps2) (by decide) (by none_writes hostOps3)]
  exact (Cert.ReferenceIdeal.RefStages.v79_eq (at0 m c main_arg0) (at0 m c main_arg1) (at0 m c main_arg2) (at0 m c main_arg3) (at0 m c main_arg4) (at0 m c main_arg5) (at0 m c main_arg6) (at0 m c main_arg7) (at0 m c main_arg8) (at0 m c main_arg9) (at0 m c main_arg10) (at0 m c main_arg11) (at0 m c main_arg12) (at0 m c main_arg13)).symm

end Cert.KernelIdeal.KernelValue

end
-- ==== Proof.lean ====
/-
  A two-layer graph convolution with a per-graph readout and a three-layer perceptron: the kernel program computes
  the four dense stages (x·W1; clamp(agg1 + b1)·W2; clamp(agg2 + b2); the perceptron on the 512 graph rows) in four
  pallas_calls tiled by rows and leaves the irregular stages (degrees and edge weights, the two edge aggregations,
  the readout) to the host, where the reference computes everything. Over the extended reals a change of float
  format is the identity and a product into a zero accumulator is the exact sum, so each region holds exactly the
  reference's dense stage of the same inputs, and every host stretch is the same operations in both programs:
  stage by stage the kernel's buffers hold the reference's stages, up to the result. No law of arithmetic beyond
  reading both sides at an index is used, so finiteness of the inputs is never opened.
  The frames of the two kernel programs are the generated ones; the reference's frame is its generated run;
  the idealization rewrote nothing.
-/
import proofs.«165648_j7834020348011_1_alg».proof.Defs
import proofs.«165648_j7834020348011_1_alg».proof.Proof.Gen.Kernel
import proofs.«165648_j7834020348011_1_alg».proof.Proof.Gen.Kernel.Skeleton
import proofs.«165648_j7834020348011_1_alg».proof.Proof.Gen.Kernel.Launch
import proofs.«165648_j7834020348011_1_alg».proof.Proof.Gen.Kernel.Points
import proofs.«165648_j7834020348011_1_alg».proof.Proof.Gen.Kernel.Frame
import proofs.«165648_j7834020348011_1_alg».proof.Proof.Gen.KernelIdeal
import proofs.«165648_j7834020348011_1_alg».proof.Proof.Gen.KernelIdeal.Skeleton
import proofs.«165648_j7834020348011_1_alg».proof.Proof.Gen.KernelIdeal.Launch
import proofs.«165648_j7834020348011_1_alg».proof.Proof.Gen.KernelIdeal.Points
import proofs.«165648_j7834020348011_1_alg».proof.Proof.Gen.KernelIdeal.Frame
import proofs.«165648_j7834020348011_1_alg».proof.Proof.Gen.ReferenceIdeal
import proofs.«165648_j7834020348011_1_alg».proof.Proof.Gen.Pre_finite_inputs
import proofs.«165648_j7834020348011_1_alg».proof.Proof.Gen.ReferenceIdeal.Run
import proofs.«165648_j7834020348011_1_alg».proof.Proof.Gen.ReferenceIdeal.Read
import proofs.«165648_j7834020348011_1_alg».proof.Proof.RunValue
import proofs.«165648_j7834020348011_1_alg».proof.Proof.KernelValue
import Idealize.ShloMosaic.Adequacy
import Idealize.ShloMosaic.Init

noncomputable section

namespace Cert.Proof

open Idealize.ShloMosaic Idealize.SL.Sem

/-- The word-level kernel program runs and leaves its arguments alone. -/
theorem frame_kernel : Cert.frame_Kernel (hKernel := Cert.Kernel.Gen.facts) (hPre_finite_inputs := Cert.Pre_finite_inputs.Gen.facts) :=
  fun m ρ _ => Cert.Kernel.Gen.frame m ρ

/-- So does the kernel program read over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's run, its result forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs, from memories that agree on the arguments, end with the reference's last stage of those arguments
    in their result buffers: the kernel by reading its buffers back through its regions and host stretches, the
    reference by its run. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨fun c => Cert.ReferenceIdeal.Read.val_main_v79 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.KernelValue.W8_v64 m ρ c), (h c).2⟩)
      (Cert.KernelIdeal.RunValue.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13⟩ := hagree c
    rw [Cert.ReferenceIdeal.Read.val_main_v79_eq, e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
